-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S8388608 : Shape := ⟨1, ![8388608]⟩
abbrev S262144 : Shape := ⟨1, ![262144]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S262144 : S_.BroadcastsInDim S262144 (![] : Fin 0 → Fin S262144.rank)
  reducesTo_S262144_S_d0 : S262144.ReducesTo [0] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : IVec S8388608 32) (main_arg2 : FVec F S262144 .f32) (main_arg3 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S262144 .f32 := Host.absf main_arg2
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S8388608 : Shape := ⟨1, ![8388608]⟩
abbrev S262144 : Shape := ⟨1, ![262144]⟩
abbrev S4096 : Shape := ⟨1, ![4096]⟩
abbrev S4096x2048 : Shape := ⟨2, ![4096, 2048]⟩
abbrev S4096x64 : Shape := ⟨2, ![4096, 64]⟩
abbrev S256x2048 : Shape := ⟨2, ![256, 2048]⟩
abbrev S256x64 : Shape := ⟨2, ![256, 64]⟩
abbrev S256x64x1 : Shape := ⟨3, ![256, 64, 1]⟩
abbrev S256x64x32 : Shape := ⟨3, ![256, 64, 32]⟩
abbrev S4096x2048x1 : Shape := ⟨3, ![4096, 2048, 1]⟩
abbrev S4096x2048x2 : Shape := ⟨3, ![4096, 2048, 2]⟩
abbrev S4096x4096 : Shape := ⟨2, ![4096, 4096]⟩
abbrev S8192x4096 : Shape := ⟨2, ![8192, 4096]⟩
abbrev S1x4096 : Shape := ⟨2, ![1, 4096]⟩
abbrev S2048x1024 : Shape := ⟨2, ![2048, 1024]⟩
abbrev S1024x1024 : Shape := ⟨2, ![1024, 1024]⟩
abbrev S1x1024 : Shape := ⟨2, ![1, 1024]⟩

abbrev nBuf : Space → Nat
  | .hbm => 17
  | .vmem => 17
  | .smem => 0
  | _ => 0

abbrev bufTy : (tb : Table) → Fin (tcTables nBuf tb) → BufTy
  | .hbm, ⟨0, _⟩ => ⟨S4x2048x4096, .f32⟩
  | .hbm, ⟨1, _⟩ => ⟨S8388608, .i32⟩
  | .hbm, ⟨2, _⟩ => ⟨S262144, .f32⟩
  | .hbm, ⟨3, _⟩ => ⟨S4096, .f32⟩
  | .hbm, ⟨4, _⟩ => ⟨S4096x2048, .i32⟩
  | .hbm, ⟨5, _⟩ => ⟨S4096x64, .f32⟩
  | .hbm, ⟨6, _⟩ => ⟨S4096x2048, .bf16⟩
  | .hbm, ⟨7, _⟩ => ⟨S4096x2048, .bf16⟩
  | .hbm, ⟨8, _⟩ => ⟨S4096x2048x1, .bf16⟩
  | .hbm, ⟨9, _⟩ => ⟨S4096x2048x1, .bf16⟩
  | .hbm, ⟨10, _⟩ => ⟨S4096x2048x2, .bf16⟩
  | .hbm, ⟨11, _⟩ => ⟨S4096x4096, .bf16⟩
  | .hbm, ⟨12, _⟩ => ⟨S8192x4096, .f32⟩
  | .hbm, ⟨13, _⟩ => ⟨S8192x4096, .bf16⟩
  | .hbm, ⟨14, _⟩ => ⟨S1x4096, .f32⟩
  | .hbm, ⟨15, _⟩ => ⟨S8192x4096, .f32⟩
  | .hbm, ⟨16, _⟩ => ⟨S4x2048x4096, .f32⟩
  | .local _ .vmem, ⟨0, _⟩ => ⟨S256x2048, .i32⟩
  | .local _ .vmem, ⟨1, _⟩ => ⟨S256x2048, .i32⟩
  | .local _ .vmem, ⟨2, _⟩ => ⟨S256x64, .f32⟩
  | .local _ .vmem, ⟨3, _⟩ => ⟨S256x64, .f32⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S2048x1024, .bf16⟩
  | .local _ .vmem, ⟨9, _⟩ => ⟨S2048x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | .local _ .vmem, ⟨13, _⟩ => ⟨S1x1024, .f32⟩
  | .local _ .vmem, ⟨14, _⟩ => ⟨S2048x1024, .f32⟩
  | .local _ .vmem, ⟨15, _⟩ => ⟨S2048x1024, .f32⟩
  | .local _ .vmem, ⟨16, _⟩ => ⟨S2048x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![4, 4, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S2048x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S8388608_S4096x2048 : S8388608.ShapeCasts S4096x2048
  shapeCasts_S262144_S4096x64 : S262144.ShapeCasts S4096x64
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S256x64_S256x64_0_0 : ∀ a, (![0, 0] : Fin 2 → Nat) a + S256x64.size a ≤ S256x64.size a
  h_S256x64 : 0 < S256x64.numel
  shapeCasts_S256x64_S256x64 : S256x64.ShapeCasts S256x64
  shapeCasts_S256x64_S256x64x1 : S256x64.ShapeCasts S256x64x1
  shapeCasts_S256x64x1_S256x64x1 : S256x64x1.ShapeCasts S256x64x1
  broadcasts_S256x64x1_S256x64x32 : S256x64x1.Broadcasts S256x64x32
  shapeCasts_S256x64x32_S256x2048 : S256x64x32.ShapeCasts S256x2048
  bitsLt_bf16_f32 : FTy.bits .bf16 < FTy.bits .f32
  packedbf16_S256x2048_S256x2048_0_0 : (Rect.unit (s := S256x2048) ![0, 0] S256x2048.size inb_S256x2048_S256x2048_0_0).PackedRows (EltTy.packing .bf16)
  bcast_S4096x2048_S4096x2048x1_0_1 : S4096x2048.BroadcastsInDim S4096x2048x1 (![0, 1] : Fin 2 → Fin S4096x2048x1.rank)
  concatenates_S4096x2048x1_S4096x2048x1_S4096x2048x2_d2 : Shape.Concatenates [S4096x2048x1, S4096x2048x1] S4096x2048x2 2
  shapeCasts_S4096x2048x2_S4096x4096 : S4096x2048x2.ShapeCasts S4096x4096
  shapeCasts_S4x2048x4096_S8192x4096 : S4x2048x4096.ShapeCasts S8192x4096
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S8192x4096_S4x2048x4096 : S8192x4096.ShapeCasts S4x2048x4096
  dot_S2048x1024_S1024x1024_S2048x1024_1_1_0_0_n_n_wf : DotDims.WF S2048x1024 S1024x1024 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .i32 = 32 ∨ (Rect.block (s := S4096x2048) S256x2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S4096x64.size a
  hwx0_1 : ∀ i : grid0.Coords, EltTy.bits .f32 = 32 ∨ (Rect.block (s := S4096x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S4096x2048.size a
  hwx0_2 : ∀ i : grid0.Coords, EltTy.bits .bf16 = 32 ∨ (Rect.block (s := S4096x2048) S256x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S4096x2048.size a
  hwx0_3 : ∀ i : grid0.Coords, EltTy.bits .bf16 = 32 ∨ (Rect.block (s := S4096x2048) S256x2048.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S8192x4096.size a
  hwx1_0 : ∀ i : grid1.Coords, EltTy.bits .bf16 = 32 ∨ (Rect.block (s := S8192x4096) S2048x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .bf16 = 32 ∨ (Rect.block (s := S4096x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1024.size a ≤ S8192x4096.size a
  hwx1_3 : ∀ i : grid1.Coords, EltTy.bits .f32 = 32 ∨ (Rect.block (s := S8192x4096) S2048x1024.size (cc1_transform_3 i) (hinb1_3 i)).WholeWords (EltTy.packing .f32)

variable [Facts₀]

def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf

abbrev win0_0 : Pipeline.Window sig grid0 :=
  Pipeline.Window.ofSpec (Memref.whole main_v0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S256x2048.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S256x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v8) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S2048x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S8388608 : Shape := ⟨1, ![8388608]⟩
abbrev S262144 : Shape := ⟨1, ![262144]⟩
abbrev S4096 : Shape := ⟨1, ![4096]⟩
abbrev S16 : Shape := ⟨1, ![16]⟩
abbrev S_ : Shape := ⟨0, ![]⟩
abbrev S8388608x1 : Shape := ⟨2, ![8388608, 1]⟩
abbrev S8388608x2 : Shape := ⟨2, ![8388608, 2]⟩
abbrev S16777216 : Shape := ⟨1, ![16777216]⟩
abbrev S16777216x1 : Shape := ⟨2, ![16777216, 1]⟩
abbrev S262144x64 : Shape := ⟨2, ![262144, 64]⟩
abbrev S262144x1 : Shape := ⟨2, ![262144, 1]⟩
abbrev S4096x4096 : Shape := ⟨2, ![4096, 4096]⟩
abbrev S1x1x4096 : Shape := ⟨3, ![1, 1, 4096]⟩

abbrev nBuf : Space → Nat
  | .hbm => 36
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S8388608, .i32⟩
  | .hbm, ⟨2, _⟩ => ⟨S262144, .f32⟩
  | .hbm, ⟨3, _⟩ => ⟨S4096, .f32⟩
  | .hbm, ⟨4, _⟩ => ⟨S16, .f32⟩
  | .hbm, ⟨5, _⟩ => ⟨S_, .i32⟩
  | .hbm, ⟨6, _⟩ => ⟨S8388608, .i32⟩
  | .hbm, ⟨7, _⟩ => ⟨S8388608, .i32⟩
  | .hbm, ⟨8, _⟩ => ⟨S_, .i32⟩
  | .hbm, ⟨9, _⟩ => ⟨S8388608, .i32⟩
  | .hbm, ⟨10, _⟩ => ⟨S8388608, .i32⟩
  | .hbm, ⟨11, _⟩ => ⟨S_, .i32⟩
  | .hbm, ⟨12, _⟩ => ⟨S8388608, .i32⟩
  | .hbm, ⟨13, _⟩ => ⟨S8388608, .i32⟩
  | .hbm, ⟨14, _⟩ => ⟨S8388608x1, .i32⟩
  | .hbm, ⟨15, _⟩ => ⟨S8388608x1, .i32⟩
  | .hbm, ⟨16, _⟩ => ⟨S8388608x2, .i32⟩
  | .hbm, ⟨17, _⟩ => ⟨S16777216, .i32⟩
  | .hbm, ⟨18, _⟩ => ⟨S_, .i32⟩
  | .hbm, ⟨19, _⟩ => ⟨S16777216, .i32⟩
  | .hbm, ⟨20, _⟩ => ⟨S16777216, .i1⟩
  | .hbm, ⟨21, _⟩ => ⟨S_, .i32⟩
  | .hbm, ⟨22, _⟩ => ⟨S16777216, .i32⟩
  | .hbm, ⟨23, _⟩ => ⟨S16777216, .i32⟩
  | .hbm, ⟨24, _⟩ => ⟨S16777216, .i32⟩
  | .hbm, ⟨25, _⟩ => ⟨S16777216x1, .i32⟩
  | .hbm, ⟨26, _⟩ => ⟨S16777216, .f32⟩
  | .hbm, ⟨27, _⟩ => ⟨S262144x64, .f32⟩
  | .hbm, ⟨28, _⟩ => ⟨S262144x1, .f32⟩
  | .hbm, ⟨29, _⟩ => ⟨S262144x64, .f32⟩
  | .hbm, ⟨30, _⟩ => ⟨S262144x64, .f32⟩
  | .hbm, ⟨31, _⟩ => ⟨S4096x4096, .f32⟩
  | .hbm, ⟨32, _⟩ => ⟨S4x2048x4096, .f32⟩
  | .hbm, ⟨33, _⟩ => ⟨S1x1x4096, .f32⟩
  | .hbm, ⟨34, _⟩ => ⟨S4x2048x4096, .f32⟩
  | .hbm, ⟨35, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_c_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]

class Facts₀ : Prop where
  bcast_S_S8388608 : S_.BroadcastsInDim S8388608 (![] : Fin 0 → Fin S8388608.rank)
  bcast_S8388608_S8388608x1_0 : S8388608.BroadcastsInDim S8388608x1 (![0] : Fin 1 → Fin S8388608x1.rank)
  concatenates_S8388608x1_S8388608x1_S8388608x2_d1 : Shape.Concatenates [S8388608x1, S8388608x1] S8388608x2 1
  shapeCasts_S8388608x2_S16777216 : S8388608x2.ShapeCasts S16777216
  bcast_S_S16777216 : S_.BroadcastsInDim S16777216 (![] : Fin 0 → Fin S16777216.rank)
  bcast_S16777216_S16777216x1_0 : S16777216.BroadcastsInDim S16777216x1 (![0] : Fin 1 → Fin S16777216x1.rank)
  shapeCasts_S16777216_S262144x64 : S16777216.ShapeCasts S262144x64
  bcast_S262144_S262144x1_0 : S262144.BroadcastsInDim S262144x1 (![0] : Fin 1 → Fin S262144x1.rank)
  bcast_S262144x1_S262144x64_0_1 : S262144x1.BroadcastsInDim S262144x64 (![0, 1] : Fin 2 → Fin S262144x64.rank)
  shapeCasts_S262144x64_S4096x4096 : S262144x64.ShapeCasts S4096x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  gather_S16_S16777216x1_S16777216_n_0_n_n_0_1_1_wf : GatherDims.WF S16 S16777216x1 S16777216 [] [0] [] [0] [] 1 ![1]
  dot_S4x2048x4096_S4096x4096_S4x2048x4096_2_1_01_0_n_n_wf : DotDims.WF S4x2048x4096 S4096x4096 S4x2048x4096 [2] [1] [0, 1] [0] [] []

variable [Facts₀]

def gather_S16_S16777216x1_S16777216_n_0_n_n_0_1_1 : GatherDims S16 S16777216x1 S16777216 where
  offsetDims := []
  collapsedSliceDims := [0]
  operandBatchingDims := []
  startIndicesBatchingDims := []
  startIndexMap := [0]
  indexVectorDim := 1
  sliceSizes := ![1]
  wf := gather_S16_S16777216x1_S16777216_n_0_n_n_0_1_1_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.K.R0.lean ====
/-
  Region 0 of the kernel's program: the dequantisation kernel on a grid of 16 row tiles, at a parameter
  `V` (the TensorCore's buffer contents when the region is entered). Each grid point reads a 256 x 2048 tile of
  packed words and a 256 x 64 tile of block scales, and stores two 256 x 2048 tiles: the code value of each word's
  high nibble times its block's scale, and the same for the low nibble. Both output tiles are stored whole at every
  point and nothing is carried between points, so what a point leaves is a function of the two input tiles alone.
-/
import proofs.«426126_j63299228008743_2_alg».proof.Proof.Gen.Kernel.Launch
import proofs.«426126_j63299228008743_2_alg».proof.Proof.Gen.Kernel.Skeleton
import proofs.«426126_j63299228008743_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s tile at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The high-nibble output tile as a function of the packed tile `x0` and the scale tile `x1`: the code value
    selected by `(x0 >> 4) & 15`, times the scale spread over its 32 packed columns, in the output's format. -/
def hiOut (x0 : Vec F S256x2048 .i32) (x1 : Vec F S256x64 .f32) : Vec F S256x2048 .bf16 :=
  k0_pay1 (k0_pay8 (k0_pay4 x0) (k0_pay6 x1) (k0_pay7 x0))

/-- The low-nibble output tile: the code value selected by `x0 & 15`, times the same spread scale. -/
def loOut (x0 : Vec F S256x2048 .i32) (x1 : Vec F S256x64 .f32) : Vec F S256x2048 .bf16 :=
  k0_pay2 (k0_pay5 x0) (k0_pay6 x1) (k0_pay11 (k0_pay5 x0) (k0_pay9 (F := F)) (k0_pay10 (k0_pay5 x0))) (k0_pay12 (k0_pay5 x0))

/-- The proof data of region 0 on core `c`: the arrays as the region finds them; after the body at point `t` each
    input's buffer at its tile and the two outputs' at `hiOut` / `loOut` of the input tiles; the invariant is the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => hiOut (iblk0 V c 0 t) (iblk0 V c 1 t)
    | ⟨3, _⟩ => loOut (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = hiOut (iblk0 V c 0 t) (iblk0 V c 1 t) := by dsimp only [dat0]
theorem after0_3 (c : Dev nD) (t : Fin cfg0.N) : (dat0 V c).after 3 t = loOut (iblk0 V c 0 t) (iblk0 V c 1 t) := by dsimp only [dat0]

/-- Input window 0 is fetched at every point, so the buffer the body is handed holds the window's tile. -/
theorem before0_0 (c : Dev nD) (t : Fin cfg0.N) (d) : (dat0 V c).before 0 t d = iblk0 V c 0 t :=
  ((dat0 V c).before_fetched 0 t (fetch0_0 t) d).trans (by unfold Dat.fetched Dat.blockOf iblk0; rw [A_eq0]; try rfl)

/-- Likewise input window 1. -/
theorem before0_1 (c : Dev nD) (t : Fin cfg0.N) (d) : (dat0 V c).before 1 t d = iblk0 V c 1 t :=
  ((dat0 V c).before_fetched 1 t (fetch0_1 t) d).trans (by unfold Dat.fetched Dat.blockOf iblk0; rw [A_eq0]; try rfl)

/-- The offsets of a whole-tile access of a rank-2 buffer are all zero. -/
theorem zeroOff_r0 : (![0, 0] : Fin 2 → Nat) = fun _ => 0 := funext fun a => by fin_cases a <;> rfl

/-- What a buffer reads after ONE store through the whole-shape rectangle at zero offsets: the stored payload, whatever the
    view and whatever it held before. -/
theorem read_write_whole_r0 {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero h inb y⟩),
    View.canon_unit_zero h]

/-- A load through the whole-shape rectangle at zero offsets reads the buffer's contents. -/
theorem readAt_whole_r0 {Val : EltTy → Type} {sg : RefSig} {κ : Kind} {sp : Space} {S : Shape} {e : EltTy}
    (v : View sg κ sp S e) (f : v.ty.Contents Val) {off : Fin S.rank → Nat} (h : off = fun _ => 0)
    (inb : ∀ a, off a + S.size a ≤ S.size a) :
    v.readAt Val (Rect.unit off S.size inb).toLoadRect f = v.read Val f :=
  (View.readAt_eq_ld v f _).trans (View.ld_unit_zero h inb _)

set_option maxHeartbeats 1000000 in
/-- The kernel on whole staging buffers: with the two input buffers reading `x0` and `x1` and the two output buffers at
    any contents, it runs to the continuation with the inputs as they were and the outputs reading `hiOut x0 x1` and
    `loOut x0 x1`: both loads read the whole buffers, and each output takes one store that covers it. -/
theorem sound_kernel0 (c : Dev nD) (E : Set ℕ) (i : grid0.Coords)
    (arg1 : Memref sig .tc .vmem S256x2048 .i32) (harg1 : arg1.IsWhole)
    (arg2 : Memref sig .tc .vmem S256x64 .f32) (harg2 : arg2.IsWhole)
    (arg3 : Memref sig .tc .vmem S256x2048 .bf16) (harg3 : arg3.IsWhole)
    (arg4 : Memref sig .tc .vmem S256x2048 .bf16) (harg4 : arg4.IsWhole)
    (x0 : Vec F S256x2048 .i32) (x1 : Vec F S256x64 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (hiOut x0 x1) ∗ owns (c : Thread nD τ) arg4 fullShare (loOut x0 x1)) -∗ K ⟨⟩))
      ⊢ wp frame (wpE (defs₀ (F := F)) Variants.none c none) E (cc0__dequant_kernel i arg1 harg1 arg2 harg2 arg3 harg3 arg4 harg4) K := by
  simp only [cc0__dequant_kernel_eq_skeleton]; unfold cc0__dequant_kernel_skel
  unfold owns
  iintro ⟨⟨%f1, %hf1, H1⟩, ⟨%f2, %hf2, H2⟩, ⟨%d3, %f3, -, H3⟩, ⟨%d4, %f4, -, H4⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  have e1 : View.readAt (Elt F) arg1.view (Rect.unit ![0, 0] S256x2048.size inb_S256x2048_S256x2048_0_0).toLoadRect f1
      = View.read (Elt F) arg1.view f1 := readAt_whole_r0 _ _ zeroOff_r0 _
  have e2 : View.readAt (Elt F) arg2.view (Rect.unit ![0, 0] S256x64.size inb_S256x64_S256x64_0_0).toLoadRect f2
      = View.read (Elt F) arg2.view f2 := readAt_whole_r0 _ _ zeroOff_r0 _
  isplitl [H3]
  · iexists _; isplitr
    swap; · iexact H3
    ipureintro
    refine (read_write_whole_r0 _ _ zeroOff_r0 _ _).trans ?_
    sl_unfold_run_names
    rw [e1, e2]; rfl
  · iexists _; isplitr
    swap; · iexact H4
    ipureintro
    refine (read_write_whole_r0 _ _ zeroOff_r0 _ _).trans ?_
    sl_unfold_run_names
    rw [e1, e2]; rfl

/-- What the body is handed at point `t`: the invariant, what the core owes, and each window's current buffer — the
    inputs' at their tiles, the outputs' at whatever the pipeline left there. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What the body hands back: the same invariant and debts, each buffer at what the proof data say it leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the two input buffers hold their tiles, so the kernel's triple applies with those tiles as
    the values read; the invariant and the debts are not touched and pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, Hin0⟩, ⟨%d1, Hin1⟩, ⟨%d2, Hout2⟩, ⟨%d3, Hout3⟩⟩
  iapply (sound_kernel0 c Set.univ _ _ _ _ _ _ _ _ _ (iblk0 V c 0 t) (iblk0 V c 1 t) _)
  isplitl [Hin0]; · iexact Hin0
  isplitl [Hin1]; · iexact Hin1
  isplitl [Hout2]; · iexists _; iexact Hout2
  isplitl [Hout3]; · iexists _; iexact Hout3
  iintro ⟨Hin0, Hin1, Hout2, Hout3⟩
  isplitl [HΦ]; · iexact HΦ
  isplitl [Ho]; · iexact Ho
  isplitl [Hin0]; · iexact Hin0
  isplitl [Hin1]; · iexact Hin1
  isplitl [Hout2]; · iexact Hout2
  iexact Hout3

/-- The library's body obligation for region 0, at every point. -/
theorem body_obligation0 (c : Dev nD) : BodyObligation (dat0 (F := F) V c) (defs₀ (F := F)) Variants.none () Set.univ := fun t => by
  rw [bigSep_W0, bigSep_W0]
  exact sound_body0 V c t

end Cert.Kernel.Frm

end
-- ==== Proof.K.R1.lean ====
/-
  Region 1 of the kernel's program: the tiled matrix product on a 4 x 4 x 4 grid (row tile i, column tile j,
  contraction tile k, k innermost), at a parameter `V` (the TensorCore's buffer contents when the region is
  entered). A scratch accumulator is carried between grid points: at k = 0 it is reset to zero, at every point
  the product of the point's two input tiles is added to it, and at k = 3 the accumulator plus the bias row is
  stored into the output tile, which the pipeline writes back there and nowhere else.
-/
import proofs.«426126_j63299228008743_2_alg».proof.Proof.Gen.Kernel.Launch
import proofs.«426126_j63299228008743_2_alg».proof.Proof.Gen.Kernel.Skeleton
import proofs.«426126_j63299228008743_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s tile at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch accumulator as a whole scoped buffer of the kernel's own. -/
abbrev scM1 : Memref sig .tc .vmem S2048x1024 .f32 := Memref.whole cc1_scratch0

/-- THE ACCUMULATION. What the scratch accumulator holds after the body at position `n`: at a point with k = 0
    (n ≡ 0 mod 4) the zero tile plus the product of the point's two input tiles; at any other point what the point
    before left plus that product. -/
def scrAt1 (c : Dev nD) : (n : ℕ) → n < cfg1.N → Vec F S2048x1024 .f32
  | 0, hn => k1_pay2 (k1_pay1 (F := F)) (iblk1 V c 0 ⟨0, hn⟩) (iblk1 V c 1 ⟨0, hn⟩)
  | n + 1, hn =>
    if (n + 1) % 4 = 0 then k1_pay2 (k1_pay1 (F := F)) (iblk1 V c 0 ⟨n + 1, hn⟩) (iblk1 V c 1 ⟨n + 1, hn⟩)
    else k1_pay2 (scrAt1 c n (Nat.lt_of_succ_lt hn)) (iblk1 V c 0 ⟨n + 1, hn⟩) (iblk1 V c 1 ⟨n + 1, hn⟩)

theorem scrAt1_reset (c : Dev nD) (t : Fin cfg1.N) (h0 : t.val % 4 = 0) :
    scrAt1 V c t.val t.isLt = k1_pay2 (k1_pay1 (F := F)) (iblk1 V c 0 t) (iblk1 V c 1 t) := by
  obtain ⟨n, hn⟩ := t
  cases n with
  | zero => rfl
  | succ n => exact (if_pos h0)

theorem scrAt1_acc (c : Dev nD) (t : Fin cfg1.N) (h0 : ¬ t.val % 4 = 0) :
    scrAt1 V c t.val t.isLt
      = k1_pay2 (scrAt1 V c (t.val - 1) (Nat.lt_of_le_of_lt (Nat.sub_le _ _) t.isLt)) (iblk1 V c 0 t) (iblk1 V c 1 t) := by
  obtain ⟨n, hn⟩ := t
  cases n with
  | zero => exact absurd (Nat.zero_mod _) h0
  | succ n => exact (if_neg h0)

/-- What the output tile's staging buffer holds after the body at a point with k = 3: the accumulator there plus
    the bias row spread over the tile's rows. (At the other points the body stores nothing into it and the pipeline
    does not write it back: the value below is consulted at no such point.) -/
def outAt1 (c : Dev nD) (t : Fin cfg1.N) : Vec F S2048x1024 .f32 :=
  k1_pay3 (scrAt1 V c t.val t.isLt) (iblk1 V c 2 t)

/-- The scoped buffers of the core that are neither a staging buffer of this region nor the accumulator (region 0's
    eight staging buffers), each whole at some contents. -/
def otherScoped1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- The region invariant before position `n`: before the first point the scoped rest (the accumulator at anything)
    and the generator register; afterwards the same with the accumulator at what the point before left in it. -/
def PhiS1 (c : Dev nD) : (n : ℕ) → n ≤ cfg1.N → sProp 𝕄
  | 0, _ => Pipeline.ΦA spec1 c
  | n + 1, hn => iprop(otherScoped1 (F := F) c ∗ owns (c : Thread nD τ) scM1 fullShare (scrAt1 V c n hn) ∗ (∃ r, prngReg c r))

/-- The proof data of region 1 on core `c`: the arrays as the region finds them; after the body at point `t` each
    input's buffer at its tile and the output's at `outAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt1 V c t := by dsimp only [dat1]

/-! ## The body's two conditions, in closed form over the grid -/

/-- The condition of the body's first `scf.if` (k = 0), from the grid coordinates. -/
abbrev cond1_0 (i : grid1.Coords) : Prop := (Scalar.cmpi .ne (Scalar.extui (Scalar.cmpi .eq (BitVec.ofNat 32 (i 2).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The condition of the body's second `scf.if` (k = 3). -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where k ≠ 3 the output window is idle and not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- Where k = 3 it is live. -/
theorem liveAt1_3 : ∀ t : Fin cfg1.N, cond1_1 (grid1.coords t) → cfg1.idle 3 (grid1.coords t) = false := by decide +kernel

/-! ## The staging memrefs the pipeline passes the body at a point -/

abbrev ms1_0 (t : Fin cfg1.N) : Memref sig .tc .vmem S2048x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1024 .f32 := win1_3.stage (cfg1.slots t 3)
abbrev hs1_3 (t : Fin cfg1.N) : (ms1_3 t).IsWhole := hstage1_3 ((cfg1.slots t 3).cast nbuf1_3)

/-- The zero offsets of a rank-2 rectangle, as the constant function. -/
theorem hz2 : (![0, 0] : Fin 2 → ℕ) = fun _ => 0 := by
  funext a; fin_cases a <;> rfl

/-! ## Whole-tile stores and loads read back -/

/-- What any view reads after a list of writes whose LAST is a store of `w` through the whole-shape rectangle at zero
    offsets: `w`, whatever came before. -/
theorem read_writes_cons_unit_zero {Val : EltTy → Type} [∀ e, Nonempty (Val e)] {sg : RefSig} {κ : Kind} {sp : Space} {S : Shape} {e : EltTy}
    (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

/-- A load through that rectangle of a whole memref holding `X` reads `X`. -/
theorem readAt_unread_unit_zero {Val : EltTy → Type} {sg : RefSig} {κ : Kind} {sp : Space} {S : Shape} {e : EltTy}
    {m : Memref sg κ sp S e} (hm : m.IsWhole) {off : Fin S.rank → ℕ} (h : off = fun _ => 0)
    (inb : ∀ a, off a + S.size a ≤ S.size a) (X : S.Idx → Val e) :
    m.view.readAt Val (Rect.unit off S.size inb).toLoadRect (hm.unread X) = X := by
  rw [View.readAt_eq_ld, hm.read_unread, View.ld_unit_zero h]

/-! ## The body's run, case by case -/

set_option maxHeartbeats 1000000 in
/-- The body where the first condition holds and the second does not (k = 0): the accumulator, found at anything, is
    reset to the zero tile and left at the zero tile plus the product of the two input tiles; the three inputs and the
    idle output window are handed back as found. -/
theorem runA (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole)
    (hc0 : cond1_0 i) (hc1 : ¬cond1_1 i)
    (x0 : Vec F S2048x1024 .bf16) (x1 : Vec F S1024x1024 .bf16) (x2 : Vec F S1x1024 .f32) (xi3 : Vec F S2048x1024 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare (k1_pay2 (k1_pay1 (F := F)) x0 x1)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg3.eq_unread hf0; obtain rfl := harg4.eq_unread hf1; obtain rfl := harg5.eq_unread hf2; obtain rfl := harg6.eq_unread hf3
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr
  swap; · iexact HS
  ipureintro
  sl_unfold_words
  refine (read_writes_cons_unit_zero _ _ hz2 _ _ _).trans ?_
  rw [View.readCov_unit_zero (S := S2048x1024) _ hz2, readAt_unread_unit_zero harg3 hz2, readAt_unread_unit_zero harg4 hz2]

set_option maxHeartbeats 1000000 in
/-- The body where neither condition holds (k = 1, 2): the three inputs and the idle output window are handed back as
    found, the accumulator is left at what it held plus the product of the two input tiles. -/
theorem runB (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole)
    (hc0 : ¬cond1_0 i) (hc1 : ¬cond1_1 i)
    (x0 : Vec F S2048x1024 .bf16) (x1 : Vec F S1024x1024 .bf16) (x2 : Vec F S1x1024 .f32) (xi3 : Vec F S2048x1024 .f32) (xs : Vec F S2048x1024 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs
        ∗ (iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare (k1_pay2 xs x0 x1)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg3.eq_unread hf0; obtain rfl := harg4.eq_unread hf1; obtain rfl := harg5.eq_unread hf2; obtain rfl := harg6.eq_unread hf3; obtain rfl := harg7.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr
  swap; · iexact HS
  ipureintro
  refine (read_writes_cons_unit_zero _ _ hz2 _ _ _).trans ?_
  rw [readAt_unread_unit_zero harg7 hz2, readAt_unread_unit_zero harg3 hz2, readAt_unread_unit_zero harg4 hz2]

set_option maxHeartbeats 1000000 in
/-- The body where the second condition holds and the first does not (k = 3): the accumulator is left at what it held
    plus the product of the two input tiles, and the output window, found at anything, at that plus the bias row
    spread over the rows; the three inputs are handed back as found. -/
theorem runC (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole)
    (hc0 : ¬cond1_0 i) (hc1 : cond1_1 i)
    (x0 : Vec F S2048x1024 .bf16) (x1 : Vec F S1024x1024 .bf16) (x2 : Vec F S1x1024 .f32) (xs : Vec F S2048x1024 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
        ∗ (iprop(owns (c : Thread nD τ) arg3 fullShare x0 ∗ owns (c : Thread nD τ) arg4 fullShare x1 ∗ owns (c : Thread nD τ) arg5 fullShare x2 ∗ owns (c : Thread nD τ) arg6 fullShare (k1_pay3 (k1_pay2 xs x0 x1) x2) ∗ owns (c : Thread nD τ) arg7 fullShare (k1_pay2 xs x0 x1)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg3.eq_unread hf0; obtain rfl := harg4.eq_unread hf1; obtain rfl := harg5.eq_unread hf2; obtain rfl := harg7.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    sl_unfold_words
    refine (read_writes_cons_unit_zero _ _ hz2 _ _ _).trans ?_
    rw [View.readCov_unit_zero (S := S2048x1024) _ hz2, readAt_unread_unit_zero harg7 hz2, readAt_unread_unit_zero harg3 hz2, readAt_unread_unit_zero harg4 hz2, readAt_unread_unit_zero harg5 hz2]
  iexists _; isplitr
  swap; · iexact HS
  ipureintro
  sl_unfold_words
  refine (read_writes_cons_unit_zero _ _ hz2 _ _ _).trans ?_
  rw [readAt_unread_unit_zero harg7 hz2, readAt_unread_unit_zero harg3 hz2, readAt_unread_unit_zero harg4 hz2]

/-! ## The region invariant, opened -/

/-- The class's invariant with the accumulator as a memref owned at some contents: region 0's staging buffers, the
    accumulator, the generator register. -/
theorem PhiA1_eq (c : Dev nD) :
    (Pipeline.ΦA spec1 c : sProp 𝕄)
      = iprop(otherScoped1 (F := F) c ∗ (∃ d, owns (c : Thread nD τ) scM1 fullShare d) ∗ (∃ r, prngReg c r)) := by
  unfold Pipeline.ΦA; rw [scopedRest1_eq]; unfold otherScoped1; simp only [scM1, owns_whole]
  refine BI.equiv_iff.mp ⟨?_, ?_⟩
  · show (_ : sProp 𝕄) ⊢ (_ : sProp 𝕄)
    iintro ⟨⟨A1, A2, A3, A4, A5, A6, A7, A8, S⟩, G⟩
    isplitl [A1 A2 A3 A4 A5 A6 A7 A8]
    · isplitl [A1]; · iexact A1
      isplitl [A2]; · iexact A2
      isplitl [A3]; · iexact A3
      isplitl [A4]; · iexact A4
      isplitl [A5]; · iexact A5
      isplitl [A6]; · iexact A6
      isplitl [A7]; · iexact A7
      iexact A8
    isplitl [S]; · iexact S
    iexact G
  · show (_ : sProp 𝕄) ⊢ (_ : sProp 𝕄)
    iintro ⟨⟨A1, A2, A3, A4, A5, A6, A7, A8⟩, S, G⟩
    isplitr [G]
    · isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      iexact S
    iexact G

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(otherScoped1 (F := F) c ∗ owns (c : Thread nD τ) scM1 fullShare (scrAt1 V c n hn) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(otherScoped1 (F := F) c ∗ owns (c : Thread nD τ) scM1 fullShare (scrAt1 V c (n - 1) (by omega)) ∗ (∃ r, prngReg c r)) := by
  cases n with
  | zero => exact absurd rfl hz
  | succ n => rfl

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-! ## What the body finds in the input windows -/

/-- Each input's current staging buffer holds its tile at every point, fetched there or not (the bias row is fetched
    only where the column tile changes; unfetched, its block index has not moved). -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold their tiles; the closed forms of the two conditions say which case
    the point is in. The invariant hands the body the accumulator (at anything before the first point, else at what
    the point before left) and takes it back at this point's contents; where k ≠ 3 the output window is idle and its
    buffer goes back as found, where k = 3 it is left at the accumulator plus the bias row. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 4 = 0
  · have h1 : ¬t.val % 4 = 3 := by omega
    have hc0 : cond1_0 (grid1.coords t) := (hcond1_0 t).mpr h0
    have hc1 : ¬cond1_1 (grid1.coords t) := fun h => h1 ((hcond1_1 t).mp h)
    rw [Dat.leavesExact_idle (dat1 V c) 3 t (idleAt1_3 t hc1) (noFlush1_3 t hc1)]
    rw [scrAt1_reset V c t h0]
    by_cases hz : t.val = 0
    · rw [PhiS1_castSucc V c t, PhiS1_zero V c _ _ hz, PhiA1_eq]
      iintro ⟨⟨HO, HS, Hg⟩, Ho, ⟨%d0, H0⟩, ⟨%d1, H1⟩, ⟨%d2, H2⟩, ⟨%d3, H3⟩⟩
      iapply (runA c (grid1.coords t) (ms1_0 t) (hs1_0 t) (ms1_1 t) (hs1_1 t) (ms1_2 t) (hs1_2 t) (ms1_3 t) (hs1_3 t) scM1 (Memref.isWhole_whole _) hc0 hc1 (iblk1 V c 0 t) (iblk1 V c 1 t) (iblk1 V c 2 t) ((dat1 V c).before 3 t d3) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HO HS Hg]
      · isplitl [HO]; · iexact HO
        isplitl [HS]; · iexact HS
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨HO, HS, Hg⟩, Ho, ⟨%d0, H0⟩, ⟨%d1, H1⟩, ⟨%d2, H2⟩, ⟨%d3, H3⟩⟩
      iapply (runA c (grid1.coords t) (ms1_0 t) (hs1_0 t) (ms1_1 t) (hs1_1 t) (ms1_2 t) (hs1_2 t) (ms1_3 t) (hs1_3 t) scM1 (Memref.isWhole_whole _) hc0 hc1 (iblk1 V c 0 t) (iblk1 V c 1 t) (iblk1 V c 2 t) ((dat1 V c).before 3 t d3) Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HO HS Hg]
      · isplitl [HO]; · iexact HO
        isplitl [HS]; · iexact HS
        iexact Hg
      isplitl [Ho]; · iexact Ho
      isplitl [H0]; · iexact H0
      isplitl [H1]; · iexact H1
      isplitl [H2]; · iexact H2
      iexists _; iexact H3
  · have hz : t.val ≠ 0 := fun e => h0 (by rw [e])
    have hc0 : ¬cond1_0 (grid1.coords t) := fun h => h0 ((hcond1_0 t).mp h)
    rw [scrAt1_acc V c t h0]
    rw [PhiS1_castSucc V c t, PhiS1_pos V c _ _ hz]
    by_cases h1 : t.val % 4 = 3
    · have hc1 : cond1_1 (grid1.coords t) := (hcond1_1 t).mpr h1
      rw [show (dat1 V c).leavesExact 3 t = owns (c : Thread nD τ) (ms1_3 t) fullShare ((dat1 V c).after 3 t) from by
        unfold Dat.leavesExact; rw [liveAt1_3 t hc1], after1_3]
      unfold outAt1
      rw [scrAt1_acc V c t h0]
      iintro ⟨⟨HO, HS, Hg⟩, Ho, ⟨%d0, H0⟩, ⟨%d1, H1⟩, ⟨%d2, H2⟩, ⟨%d3, H3⟩⟩
      iapply (runC c (grid1.coords t) (ms1_0 t) (hs1_0 t) (ms1_1 t) (hs1_1 t) (ms1_2 t) (hs1_2 t) (ms1_3 t) (hs1_3 t) scM1 (Memref.isWhole_whole _) hc0 hc1 (iblk1 V c 0 t) (iblk1 V c 1 t) (iblk1 V c 2 t) (scrAt1 V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HO HS Hg]
      · isplitl [HO]; · iexact HO
        isplitl [HS]; · iexact HS
        iexact Hg
      isplitl [Ho]; · iexact Ho
      isplitl [H0]; · iexact H0
      isplitl [H1]; · iexact H1
      isplitl [H2]; · iexact H2
      iexact H3
    · have hc1 : ¬cond1_1 (grid1.coords t) := fun h => h1 ((hcond1_1 t).mp h)
      rw [Dat.leavesExact_idle (dat1 V c) 3 t (idleAt1_3 t hc1) (noFlush1_3 t hc1)]
      iintro ⟨⟨HO, HS, Hg⟩, Ho, ⟨%d0, H0⟩, ⟨%d1, H1⟩, ⟨%d2, H2⟩, ⟨%d3, H3⟩⟩
      iapply (runB c (grid1.coords t) (ms1_0 t) (hs1_0 t) (ms1_1 t) (hs1_1 t) (ms1_2 t) (hs1_2 t) (ms1_3 t) (hs1_3 t) scM1 (Memref.isWhole_whole _) hc0 hc1 (iblk1 V c 0 t) (iblk1 V c 1 t) (iblk1 V c 2 t) ((dat1 V c).before 3 t d3) (scrAt1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HO HS Hg]
      · isplitl [HO]; · iexact HO
        isplitl [HS]; · iexact HS
        iexact Hg
      isplitl [Ho]; · iexact Ho
      isplitl [H0]; · iexact H0
      isplitl [H1]; · iexact H1
      isplitl [H2]; · iexact H2
      iexists _; iexact H3

/-- The library's body obligation for region 1, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the scoped rest and the generator register back: the
    accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨HO, HS, Hg⟩
  isplitl [HO]; · iexact HO
  isplitl [HS]
  · iexists _; iexact HS
  iexact Hg

/-- After the last point the invariant gives the scoped rest and the generator register back: the accumulator's
    named contents are forgotten. -/
theorem hout1 (c : Dev nD) : (dat1 V c).Φ (Fin.last cfg1.N) ⊢ Pipeline.ΦA spec1 c :=
  Phi_out1 V c _ (by rw [Fin.val_last]; have : cfg1.N = 64 := N_1; omega)

end Cert.Kernel.Frm

end
-- ==== Proof.K.Run.lean ====
/-
  The kernel's program as a run of five segments — host reshapes, region 0 (dequantisation), the host interleave
  and casts, region 1 (matrix product), the final host reshape — from the launch to the return, with the contents
  of every unscoped buffer named at each boundary: a fold from the launch memory through the host operations and
  through what each region's write-backs leave in its arrays.
-/
import proofs.«426126_j63299228008743_2_alg».proof.Proof.K.R0
import proofs.«426126_j63299228008743_2_alg».proof.Proof.K.R1

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last host stretch (the return). -/
abbrev W5 : Dev nD → Valuation τ sig (Elt F) := fun c => StableHlo.after hostOps2 (W4 m ρ c)

/-! ## The proof data family and the thread state -/

/-- The prefetched tables' admissible contents: no pipeline has a table. -/
abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- REGION 0 over the thread state: entered from every unscoped buffer at `W1`, left at `W2`. Its arrays are split
    out of the unscoped buffers and put back at the exit contents; the generator register goes into the invariant
    and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. As region 0, except
    that its invariant names the accumulator's contents between points: it starts as the scoped rest with the
    generator register (`hin1`) and gives them back after the last point (`hout1`). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show iprop((∃ r, prngReg c r) ∗ Pipeline.prefHeld (pcfgs (F := F) 1).pre c (fun _ => fullShare) (adm (F := F) 1).1
          ∗ Pipeline.scopedRest (Pipeline.pin (pcfgs (F := F)) adm 1).spec c) ⊢ (Pipeline.ΦA spec1 c : sProp 𝕄) from by
      unfold Pipeline.ΦA
      iintro ⟨Hp, -, Hr⟩
      isplitl [Hr]; · iexact Hr
      iexact Hp).trans (hin1 (V3 m ρ) c)
  hout c := by
    rw [Pipeline.ownSems0_none]
    exact (hout1 (V3 m ρ) c).trans (show (Pipeline.ΦA spec1 c : sProp 𝕄) ⊢ iprop((∃ r, prngReg c r) ∗ BI.emp
          ∗ Pipeline.scopedRest (Pipeline.pin (pcfgs (F := F)) adm 1).spec c) from by
      unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's five segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- The program IS the run of the segments. -/
theorem main_run (c : Dev nD) : main (F := F) c = Pipeline.Seg.run (segs m ρ) := (main_chain c).trans (by chain_rfl)

set_option backward.isDefEq.respectTransparency.types false in
/-- THE RUN. At the compiled mesh, from any memory with zero counters: every weakly fair execution of the program
    terminates, nothing faulting, and every final state holds every unscoped buffer at the last boundary's
    contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c =>
      (show iprop(StableHlo.held (c : Thread nD τ) (Pipeline.ucRefs τ sig) (W5 m ρ c) ∗ R c)
          ⊢ (iprop(Tₙ m ρ c ∗ ∃ W, owes (c : Thread nD τ) (0 : CellTallies nD τ sig Unit) W) : sProp 𝕄) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-! ## The arguments end as launched

No host operation writes an argument and no region's array is one, so the fold at an argument's buffer walks
back through every boundary to the launch memory. -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_forall_not_mem (b := Proc.devRef .tc main_arg1) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_forall_not_mem (b := Proc.devRef .tc main_arg2) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_forall_not_mem (b := Proc.devRef .tc main_arg3) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- THE FRAME: every weakly fair execution terminates, nothing faulting, with the four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c)⟩) (run_all m ρ)

end Cert.Kernel.Frm

end
-- ==== Proof.KI.R0.lean ====
/-
  Region 0 of the kernel's program: the dequantisation kernel on a grid of 16 row tiles, at a parameter
  `V` (the TensorCore's buffer contents when the region is entered). Each grid point reads a 256 x 2048 tile of
  packed words and a 256 x 64 tile of block scales, and stores two 256 x 2048 tiles: the code value of each word's
  high nibble times its block's scale, and the same for the low nibble. Both output tiles are stored whole at every
  point and nothing is carried between points, so what a point leaves is a function of the two input tiles alone.
-/
import proofs.«426126_j63299228008743_2_alg».proof.Proof.Gen.KernelIdeal.Launch
import proofs.«426126_j63299228008743_2_alg».proof.Proof.Gen.KernelIdeal.Skeleton
import proofs.«426126_j63299228008743_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s tile at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The high-nibble output tile as a function of the packed tile `x0` and the scale tile `x1`: the code value
    selected by `(x0 >> 4) & 15`, times the scale spread over its 32 packed columns, in the output's format. -/
def hiOut (x0 : Vec F S256x2048 .i32) (x1 : Vec F S256x64 .f32) : Vec F S256x2048 .bf16 :=
  k0_pay1 (k0_pay8 (k0_pay4 x0) (k0_pay6 x1) (k0_pay7 x0))

/-- The low-nibble output tile: the code value selected by `x0 & 15`, times the same spread scale. -/
def loOut (x0 : Vec F S256x2048 .i32) (x1 : Vec F S256x64 .f32) : Vec F S256x2048 .bf16 :=
  k0_pay2 (k0_pay5 x0) (k0_pay6 x1) (k0_pay11 (k0_pay5 x0) (k0_pay9 (F := F)) (k0_pay10 (k0_pay5 x0))) (k0_pay12 (k0_pay5 x0))

/-- The proof data of region 0 on core `c`: the arrays as the region finds them; after the body at point `t` each
    input's buffer at its tile and the two outputs' at `hiOut` / `loOut` of the input tiles; the invariant is the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => hiOut (iblk0 V c 0 t) (iblk0 V c 1 t)
    | ⟨3, _⟩ => loOut (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = hiOut (iblk0 V c 0 t) (iblk0 V c 1 t) := by dsimp only [dat0]
theorem after0_3 (c : Dev nD) (t : Fin cfg0.N) : (dat0 V c).after 3 t = loOut (iblk0 V c 0 t) (iblk0 V c 1 t) := by dsimp only [dat0]

/-- Input window 0 is fetched at every point, so the buffer the body is handed holds the window's tile. -/
theorem before0_0 (c : Dev nD) (t : Fin cfg0.N) (d) : (dat0 V c).before 0 t d = iblk0 V c 0 t :=
  ((dat0 V c).before_fetched 0 t (fetch0_0 t) d).trans (by unfold Dat.fetched Dat.blockOf iblk0; rw [A_eq0]; try rfl)

/-- Likewise input window 1. -/
theorem before0_1 (c : Dev nD) (t : Fin cfg0.N) (d) : (dat0 V c).before 1 t d = iblk0 V c 1 t :=
  ((dat0 V c).before_fetched 1 t (fetch0_1 t) d).trans (by unfold Dat.fetched Dat.blockOf iblk0; rw [A_eq0]; try rfl)

/-- The offsets of a whole-tile access of a rank-2 buffer are all zero. -/
theorem zeroOff_r0 : (![0, 0] : Fin 2 → Nat) = fun _ => 0 := funext fun a => by fin_cases a <;> rfl

/-- What a buffer reads after ONE store through the whole-shape rectangle at zero offsets: the stored payload, whatever the
    view and whatever it held before. -/
theorem read_write_whole_r0 {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero h inb y⟩),
    View.canon_unit_zero h]

/-- A load through the whole-shape rectangle at zero offsets reads the buffer's contents. -/
theorem readAt_whole_r0 {Val : EltTy → Type} {sg : RefSig} {κ : Kind} {sp : Space} {S : Shape} {e : EltTy}
    (v : View sg κ sp S e) (f : v.ty.Contents Val) {off : Fin S.rank → Nat} (h : off = fun _ => 0)
    (inb : ∀ a, off a + S.size a ≤ S.size a) :
    v.readAt Val (Rect.unit off S.size inb).toLoadRect f = v.read Val f :=
  (View.readAt_eq_ld v f _).trans (View.ld_unit_zero h inb _)

set_option maxHeartbeats 1000000 in
/-- The kernel on whole staging buffers: with the two input buffers reading `x0` and `x1` and the two output buffers at
    any contents, it runs to the continuation with the inputs as they were and the outputs reading `hiOut x0 x1` and
    `loOut x0 x1`: both loads read the whole buffers, and each output takes one store that covers it. -/
theorem sound_kernel0 (c : Dev nD) (E : Set ℕ) (i : grid0.Coords)
    (arg1 : Memref sig .tc .vmem S256x2048 .i32) (harg1 : arg1.IsWhole)
    (arg2 : Memref sig .tc .vmem S256x64 .f32) (harg2 : arg2.IsWhole)
    (arg3 : Memref sig .tc .vmem S256x2048 .bf16) (harg3 : arg3.IsWhole)
    (arg4 : Memref sig .tc .vmem S256x2048 .bf16) (harg4 : arg4.IsWhole)
    (x0 : Vec F S256x2048 .i32) (x1 : Vec F S256x64 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (hiOut x0 x1) ∗ owns (c : Thread nD τ) arg4 fullShare (loOut x0 x1)) -∗ K ⟨⟩))
      ⊢ wp frame (wpE (defs₀ (F := F)) Variants.none c none) E (cc0__dequant_kernel i arg1 harg1 arg2 harg2 arg3 harg3 arg4 harg4) K := by
  simp only [cc0__dequant_kernel_eq_skeleton]; unfold cc0__dequant_kernel_skel
  unfold owns
  iintro ⟨⟨%f1, %hf1, H1⟩, ⟨%f2, %hf2, H2⟩, ⟨%d3, %f3, -, H3⟩, ⟨%d4, %f4, -, H4⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  have e1 : View.readAt (Elt F) arg1.view (Rect.unit ![0, 0] S256x2048.size inb_S256x2048_S256x2048_0_0).toLoadRect f1
      = View.read (Elt F) arg1.view f1 := readAt_whole_r0 _ _ zeroOff_r0 _
  have e2 : View.readAt (Elt F) arg2.view (Rect.unit ![0, 0] S256x64.size inb_S256x64_S256x64_0_0).toLoadRect f2
      = View.read (Elt F) arg2.view f2 := readAt_whole_r0 _ _ zeroOff_r0 _
  isplitl [H3]
  · iexists _; isplitr
    swap; · iexact H3
    ipureintro
    refine (read_write_whole_r0 _ _ zeroOff_r0 _ _).trans ?_
    sl_unfold_run_names
    rw [e1, e2]; rfl
  · iexists _; isplitr
    swap; · iexact H4
    ipureintro
    refine (read_write_whole_r0 _ _ zeroOff_r0 _ _).trans ?_
    sl_unfold_run_names
    rw [e1, e2]; rfl

/-- What the body is handed at point `t`: the invariant, what the core owes, and each window's current buffer — the
    inputs' at their tiles, the outputs' at whatever the pipeline left there. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What the body hands back: the same invariant and debts, each buffer at what the proof data say it leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the two input buffers hold their tiles, so the kernel's triple applies with those tiles as
    the values read; the invariant and the debts are not touched and pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, Hin0⟩, ⟨%d1, Hin1⟩, ⟨%d2, Hout2⟩, ⟨%d3, Hout3⟩⟩
  iapply (sound_kernel0 c Set.univ _ _ _ _ _ _ _ _ _ (iblk0 V c 0 t) (iblk0 V c 1 t) _)
  isplitl [Hin0]; · iexact Hin0
  isplitl [Hin1]; · iexact Hin1
  isplitl [Hout2]; · iexists _; iexact Hout2
  isplitl [Hout3]; · iexists _; iexact Hout3
  iintro ⟨Hin0, Hin1, Hout2, Hout3⟩
  isplitl [HΦ]; · iexact HΦ
  isplitl [Ho]; · iexact Ho
  isplitl [Hin0]; · iexact Hin0
  isplitl [Hin1]; · iexact Hin1
  isplitl [Hout2]; · iexact Hout2
  iexact Hout3

/-- The library's body obligation for region 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frm

end
-- ==== Proof.KI.R1.lean ====
/-
  Region 1 of the kernel's program: the tiled matrix product on a 4 x 4 x 4 grid (row tile i, column tile j,
  contraction tile k, k innermost), at a parameter `V` (the TensorCore's buffer contents when the region is
  entered). A scratch accumulator is carried between grid points: at k = 0 it is reset to zero, at every point
  the product of the point's two input tiles is added to it, and at k = 3 the accumulator plus the bias row is
  stored into the output tile, which the pipeline writes back there and nowhere else.
-/
import proofs.«426126_j63299228008743_2_alg».proof.Proof.Gen.KernelIdeal.Launch
import proofs.«426126_j63299228008743_2_alg».proof.Proof.Gen.KernelIdeal.Skeleton
import proofs.«426126_j63299228008743_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s tile at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch accumulator as a whole scoped buffer of the kernel's own. -/
abbrev scM1 : Memref sig .tc .vmem S2048x1024 .f32 := Memref.whole cc1_scratch0

/-- THE ACCUMULATION. What the scratch accumulator holds after the body at position `n`: at a point with k = 0
    (n ≡ 0 mod 4) the zero tile plus the product of the point's two input tiles; at any other point what the point
    before left plus that product. -/
def scrAt1 (c : Dev nD) : (n : ℕ) → n < cfg1.N → Vec F S2048x1024 .f32
  | 0, hn => k1_pay2 (k1_pay1 (F := F)) (iblk1 V c 0 ⟨0, hn⟩) (iblk1 V c 1 ⟨0, hn⟩)
  | n + 1, hn =>
    if (n + 1) % 4 = 0 then k1_pay2 (k1_pay1 (F := F)) (iblk1 V c 0 ⟨n + 1, hn⟩) (iblk1 V c 1 ⟨n + 1, hn⟩)
    else k1_pay2 (scrAt1 c n (Nat.lt_of_succ_lt hn)) (iblk1 V c 0 ⟨n + 1, hn⟩) (iblk1 V c 1 ⟨n + 1, hn⟩)

theorem scrAt1_reset (c : Dev nD) (t : Fin cfg1.N) (h0 : t.val % 4 = 0) :
    scrAt1 V c t.val t.isLt = k1_pay2 (k1_pay1 (F := F)) (iblk1 V c 0 t) (iblk1 V c 1 t) := by
  obtain ⟨n, hn⟩ := t
  cases n with
  | zero => rfl
  | succ n => exact (if_pos h0)

theorem scrAt1_acc (c : Dev nD) (t : Fin cfg1.N) (h0 : ¬ t.val % 4 = 0) :
    scrAt1 V c t.val t.isLt
      = k1_pay2 (scrAt1 V c (t.val - 1) (Nat.lt_of_le_of_lt (Nat.sub_le _ _) t.isLt)) (iblk1 V c 0 t) (iblk1 V c 1 t) := by
  obtain ⟨n, hn⟩ := t
  cases n with
  | zero => exact absurd (Nat.zero_mod _) h0
  | succ n => exact (if_neg h0)

/-- What the output tile's staging buffer holds after the body at a point with k = 3: the accumulator there plus
    the bias row spread over the tile's rows. (At the other points the body stores nothing into it and the pipeline
    does not write it back: the value below is consulted at no such point.) -/
def outAt1 (c : Dev nD) (t : Fin cfg1.N) : Vec F S2048x1024 .f32 :=
  k1_pay3 (scrAt1 V c t.val t.isLt) (iblk1 V c 2 t)

/-- The scoped buffers of the core that are neither a staging buffer of this region nor the accumulator (region 0's
    eight staging buffers), each whole at some contents. -/
def otherScoped1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- The region invariant before position `n`: before the first point the scoped rest (the accumulator at anything)
    and the generator register; afterwards the same with the accumulator at what the point before left in it. -/
def PhiS1 (c : Dev nD) : (n : ℕ) → n ≤ cfg1.N → sProp 𝕄
  | 0, _ => Pipeline.ΦA spec1 c
  | n + 1, hn => iprop(otherScoped1 (F := F) c ∗ owns (c : Thread nD τ) scM1 fullShare (scrAt1 V c n hn) ∗ (∃ r, prngReg c r))

/-- The proof data of region 1 on core `c`: the arrays as the region finds them; after the body at point `t` each
    input's buffer at its tile and the output's at `outAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt1 V c t := by dsimp only [dat1]

/-! ## The body's two conditions, in closed form over the grid -/

/-- The condition of the body's first `scf.if` (k = 0), from the grid coordinates. -/
abbrev cond1_0 (i : grid1.Coords) : Prop := (Scalar.cmpi .ne (Scalar.extui (Scalar.cmpi .eq (BitVec.ofNat 32 (i 2).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The condition of the body's second `scf.if` (k = 3). -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where k ≠ 3 the output window is idle and not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- Where k = 3 it is live. -/
theorem liveAt1_3 : ∀ t : Fin cfg1.N, cond1_1 (grid1.coords t) → cfg1.idle 3 (grid1.coords t) = false := by decide +kernel

/-! ## The staging memrefs the pipeline passes the body at a point -/

abbrev ms1_0 (t : Fin cfg1.N) : Memref sig .tc .vmem S2048x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1024 .f32 := win1_3.stage (cfg1.slots t 3)
abbrev hs1_3 (t : Fin cfg1.N) : (ms1_3 t).IsWhole := hstage1_3 ((cfg1.slots t 3).cast nbuf1_3)

/-- The zero offsets of a rank-2 rectangle, as the constant function. -/
theorem hz2 : (![0, 0] : Fin 2 → ℕ) = fun _ => 0 := by
  funext a; fin_cases a <;> rfl

/-! ## Whole-tile stores and loads read back -/

/-- What any view reads after a list of writes whose LAST is a store of `w` through the whole-shape rectangle at zero
    offsets: `w`, whatever came before. -/
theorem read_writes_cons_unit_zero {Val : EltTy → Type} [∀ e, Nonempty (Val e)] {sg : RefSig} {κ : Kind} {sp : Space} {S : Shape} {e : EltTy}
    (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

/-- A load through that rectangle of a whole memref holding `X` reads `X`. -/
theorem readAt_unread_unit_zero {Val : EltTy → Type} {sg : RefSig} {κ : Kind} {sp : Space} {S : Shape} {e : EltTy}
    {m : Memref sg κ sp S e} (hm : m.IsWhole) {off : Fin S.rank → ℕ} (h : off = fun _ => 0)
    (inb : ∀ a, off a + S.size a ≤ S.size a) (X : S.Idx → Val e) :
    m.view.readAt Val (Rect.unit off S.size inb).toLoadRect (hm.unread X) = X := by
  rw [View.readAt_eq_ld, hm.read_unread, View.ld_unit_zero h]

/-! ## The body's run, case by case -/

set_option maxHeartbeats 1000000 in
/-- The body where the first condition holds and the second does not (k = 0): the accumulator, found at anything, is
    reset to the zero tile and left at the zero tile plus the product of the two input tiles; the three inputs and the
    idle output window are handed back as found. -/
theorem runA (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole)
    (hc0 : cond1_0 i) (hc1 : ¬cond1_1 i)
    (x0 : Vec F S2048x1024 .bf16) (x1 : Vec F S1024x1024 .bf16) (x2 : Vec F S1x1024 .f32) (xi3 : Vec F S2048x1024 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare (k1_pay2 (k1_pay1 (F := F)) x0 x1)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg3.eq_unread hf0; obtain rfl := harg4.eq_unread hf1; obtain rfl := harg5.eq_unread hf2; obtain rfl := harg6.eq_unread hf3
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr
  swap; · iexact HS
  ipureintro
  sl_unfold_words
  refine (read_writes_cons_unit_zero _ _ hz2 _ _ _).trans ?_
  rw [View.readCov_unit_zero (S := S2048x1024) _ hz2, readAt_unread_unit_zero harg3 hz2, readAt_unread_unit_zero harg4 hz2]

set_option maxHeartbeats 1000000 in
/-- The body where neither condition holds (k = 1, 2): the three inputs and the idle output window are handed back as
    found, the accumulator is left at what it held plus the product of the two input tiles. -/
theorem runB (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole)
    (hc0 : ¬cond1_0 i) (hc1 : ¬cond1_1 i)
    (x0 : Vec F S2048x1024 .bf16) (x1 : Vec F S1024x1024 .bf16) (x2 : Vec F S1x1024 .f32) (xi3 : Vec F S2048x1024 .f32) (xs : Vec F S2048x1024 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs
        ∗ (iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare (k1_pay2 xs x0 x1)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg3.eq_unread hf0; obtain rfl := harg4.eq_unread hf1; obtain rfl := harg5.eq_unread hf2; obtain rfl := harg6.eq_unread hf3; obtain rfl := harg7.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr
  swap; · iexact HS
  ipureintro
  refine (read_writes_cons_unit_zero _ _ hz2 _ _ _).trans ?_
  rw [readAt_unread_unit_zero harg7 hz2, readAt_unread_unit_zero harg3 hz2, readAt_unread_unit_zero harg4 hz2]

set_option maxHeartbeats 1000000 in
/-- The body where the second condition holds and the first does not (k = 3): the accumulator is left at what it held
    plus the product of the two input tiles, and the output window, found at anything, at that plus the bias row
    spread over the rows; the three inputs are handed back as found. -/
theorem runC (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole)
    (hc0 : ¬cond1_0 i) (hc1 : cond1_1 i)
    (x0 : Vec F S2048x1024 .bf16) (x1 : Vec F S1024x1024 .bf16) (x2 : Vec F S1x1024 .f32) (xs : Vec F S2048x1024 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
        ∗ (iprop(owns (c : Thread nD τ) arg3 fullShare x0 ∗ owns (c : Thread nD τ) arg4 fullShare x1 ∗ owns (c : Thread nD τ) arg5 fullShare x2 ∗ owns (c : Thread nD τ) arg6 fullShare (k1_pay3 (k1_pay2 xs x0 x1) x2) ∗ owns (c : Thread nD τ) arg7 fullShare (k1_pay2 xs x0 x1)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg3.eq_unread hf0; obtain rfl := harg4.eq_unread hf1; obtain rfl := harg5.eq_unread hf2; obtain rfl := harg7.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    sl_unfold_words
    refine (read_writes_cons_unit_zero _ _ hz2 _ _ _).trans ?_
    rw [View.readCov_unit_zero (S := S2048x1024) _ hz2, readAt_unread_unit_zero harg7 hz2, readAt_unread_unit_zero harg3 hz2, readAt_unread_unit_zero harg4 hz2, readAt_unread_unit_zero harg5 hz2]
  iexists _; isplitr
  swap; · iexact HS
  ipureintro
  sl_unfold_words
  refine (read_writes_cons_unit_zero _ _ hz2 _ _ _).trans ?_
  rw [readAt_unread_unit_zero harg7 hz2, readAt_unread_unit_zero harg3 hz2, readAt_unread_unit_zero harg4 hz2]

/-! ## The region invariant, opened -/

/-- The class's invariant with the accumulator as a memref owned at some contents: region 0's staging buffers, the
    accumulator, the generator register. -/
theorem PhiA1_eq (c : Dev nD) :
    (Pipeline.ΦA spec1 c : sProp 𝕄)
      = iprop(otherScoped1 (F := F) c ∗ (∃ d, owns (c : Thread nD τ) scM1 fullShare d) ∗ (∃ r, prngReg c r)) := by
  unfold Pipeline.ΦA; rw [scopedRest1_eq]; unfold otherScoped1; simp only [scM1, owns_whole]
  refine BI.equiv_iff.mp ⟨?_, ?_⟩
  · show (_ : sProp 𝕄) ⊢ (_ : sProp 𝕄)
    iintro ⟨⟨A1, A2, A3, A4, A5, A6, A7, A8, S⟩, G⟩
    isplitl [A1 A2 A3 A4 A5 A6 A7 A8]
    · isplitl [A1]; · iexact A1
      isplitl [A2]; · iexact A2
      isplitl [A3]; · iexact A3
      isplitl [A4]; · iexact A4
      isplitl [A5]; · iexact A5
      isplitl [A6]; · iexact A6
      isplitl [A7]; · iexact A7
      iexact A8
    isplitl [S]; · iexact S
    iexact G
  · show (_ : sProp 𝕄) ⊢ (_ : sProp 𝕄)
    iintro ⟨⟨A1, A2, A3, A4, A5, A6, A7, A8⟩, S, G⟩
    isplitr [G]
    · isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      iexact S
    iexact G

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(otherScoped1 (F := F) c ∗ owns (c : Thread nD τ) scM1 fullShare (scrAt1 V c n hn) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(otherScoped1 (F := F) c ∗ owns (c : Thread nD τ) scM1 fullShare (scrAt1 V c (n - 1) (by omega)) ∗ (∃ r, prngReg c r)) := by
  cases n with
  | zero => exact absurd rfl hz
  | succ n => rfl

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-! ## What the body finds in the input windows -/

/-- Each input's current staging buffer holds its tile at every point, fetched there or not (the bias row is fetched
    only where the column tile changes; unfetched, its block index has not moved). -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold their tiles; the closed forms of the two conditions say which case
    the point is in. The invariant hands the body the accumulator (at anything before the first point, else at what
    the point before left) and takes it back at this point's contents; where k ≠ 3 the output window is idle and its
    buffer goes back as found, where k = 3 it is left at the accumulator plus the bias row. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 4 = 0
  · have h1 : ¬t.val % 4 = 3 := by omega
    have hc0 : cond1_0 (grid1.coords t) := (hcond1_0 t).mpr h0
    have hc1 : ¬cond1_1 (grid1.coords t) := fun h => h1 ((hcond1_1 t).mp h)
    rw [Dat.leavesExact_idle (dat1 V c) 3 t (idleAt1_3 t hc1) (noFlush1_3 t hc1)]
    rw [scrAt1_reset V c t h0]
    by_cases hz : t.val = 0
    · rw [PhiS1_castSucc V c t, PhiS1_zero V c _ _ hz, PhiA1_eq]
      iintro ⟨⟨HO, HS, Hg⟩, Ho, ⟨%d0, H0⟩, ⟨%d1, H1⟩, ⟨%d2, H2⟩, ⟨%d3, H3⟩⟩
      iapply (runA c (grid1.coords t) (ms1_0 t) (hs1_0 t) (ms1_1 t) (hs1_1 t) (ms1_2 t) (hs1_2 t) (ms1_3 t) (hs1_3 t) scM1 (Memref.isWhole_whole _) hc0 hc1 (iblk1 V c 0 t) (iblk1 V c 1 t) (iblk1 V c 2 t) ((dat1 V c).before 3 t d3) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HO HS Hg]
      · isplitl [HO]; · iexact HO
        isplitl [HS]; · iexact HS
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨HO, HS, Hg⟩, Ho, ⟨%d0, H0⟩, ⟨%d1, H1⟩, ⟨%d2, H2⟩, ⟨%d3, H3⟩⟩
      iapply (runA c (grid1.coords t) (ms1_0 t) (hs1_0 t) (ms1_1 t) (hs1_1 t) (ms1_2 t) (hs1_2 t) (ms1_3 t) (hs1_3 t) scM1 (Memref.isWhole_whole _) hc0 hc1 (iblk1 V c 0 t) (iblk1 V c 1 t) (iblk1 V c 2 t) ((dat1 V c).before 3 t d3) Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HO HS Hg]
      · isplitl [HO]; · iexact HO
        isplitl [HS]; · iexact HS
        iexact Hg
      isplitl [Ho]; · iexact Ho
      isplitl [H0]; · iexact H0
      isplitl [H1]; · iexact H1
      isplitl [H2]; · iexact H2
      iexists _; iexact H3
  · have hz : t.val ≠ 0 := fun e => h0 (by rw [e])
    have hc0 : ¬cond1_0 (grid1.coords t) := fun h => h0 ((hcond1_0 t).mp h)
    rw [scrAt1_acc V c t h0]
    rw [PhiS1_castSucc V c t, PhiS1_pos V c _ _ hz]
    by_cases h1 : t.val % 4 = 3
    · have hc1 : cond1_1 (grid1.coords t) := (hcond1_1 t).mpr h1
      rw [show (dat1 V c).leavesExact 3 t = owns (c : Thread nD τ) (ms1_3 t) fullShare ((dat1 V c).after 3 t) from by
        unfold Dat.leavesExact; rw [liveAt1_3 t hc1], after1_3]
      unfold outAt1
      rw [scrAt1_acc V c t h0]
      iintro ⟨⟨HO, HS, Hg⟩, Ho, ⟨%d0, H0⟩, ⟨%d1, H1⟩, ⟨%d2, H2⟩, ⟨%d3, H3⟩⟩
      iapply (runC c (grid1.coords t) (ms1_0 t) (hs1_0 t) (ms1_1 t) (hs1_1 t) (ms1_2 t) (hs1_2 t) (ms1_3 t) (hs1_3 t) scM1 (Memref.isWhole_whole _) hc0 hc1 (iblk1 V c 0 t) (iblk1 V c 1 t) (iblk1 V c 2 t) (scrAt1 V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HO HS Hg]
      · isplitl [HO]; · iexact HO
        isplitl [HS]; · iexact HS
        iexact Hg
      isplitl [Ho]; · iexact Ho
      isplitl [H0]; · iexact H0
      isplitl [H1]; · iexact H1
      isplitl [H2]; · iexact H2
      iexact H3
    · have hc1 : ¬cond1_1 (grid1.coords t) := fun h => h1 ((hcond1_1 t).mp h)
      rw [Dat.leavesExact_idle (dat1 V c) 3 t (idleAt1_3 t hc1) (noFlush1_3 t hc1)]
      iintro ⟨⟨HO, HS, Hg⟩, Ho, ⟨%d0, H0⟩, ⟨%d1, H1⟩, ⟨%d2, H2⟩, ⟨%d3, H3⟩⟩
      iapply (runB c (grid1.coords t) (ms1_0 t) (hs1_0 t) (ms1_1 t) (hs1_1 t) (ms1_2 t) (hs1_2 t) (ms1_3 t) (hs1_3 t) scM1 (Memref.isWhole_whole _) hc0 hc1 (iblk1 V c 0 t) (iblk1 V c 1 t) (iblk1 V c 2 t) ((dat1 V c).before 3 t d3) (scrAt1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HO HS Hg]
      · isplitl [HO]; · iexact HO
        isplitl [HS]; · iexact HS
        iexact Hg
      isplitl [Ho]; · iexact Ho
      isplitl [H0]; · iexact H0
      isplitl [H1]; · iexact H1
      isplitl [H2]; · iexact H2
      iexists _; iexact H3

/-- The library's body obligation for region 1, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the scoped rest and the generator register back: the
    accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨HO, HS, Hg⟩
  isplitl [HO]; · iexact HO
  isplitl [HS]
  · iexists _; iexact HS
  iexact Hg

/-- After the last point the invariant gives the scoped rest and the generator register back: the accumulator's
    named contents are forgotten. -/
theorem hout1 (c : Dev nD) : (dat1 V c).Φ (Fin.last cfg1.N) ⊢ Pipeline.ΦA spec1 c :=
  Phi_out1 V c _ (by rw [Fin.val_last]; have : cfg1.N = 64 := N_1; omega)

end Cert.KernelIdeal.Frm

end
-- ==== Proof.KI.Run.lean ====
/-
  The kernel's program as a run of five segments — host reshapes, region 0 (dequantisation), the host interleave
  and casts, region 1 (matrix product), the final host reshape — from the launch to the return, with the contents
  of every unscoped buffer named at each boundary: a fold from the launch memory through the host operations and
  through what each region's write-backs leave in its arrays.
-/
import proofs.«426126_j63299228008743_2_alg».proof.Proof.KI.R0
import proofs.«426126_j63299228008743_2_alg».proof.Proof.KI.R1

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last host stretch (the return). -/
abbrev W5 : Dev nD → Valuation τ sig (Elt F) := fun c => StableHlo.after hostOps2 (W4 m ρ c)

/-! ## The proof data family and the thread state -/

/-- The prefetched tables' admissible contents: no pipeline has a table. -/
abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- REGION 0 over the thread state: entered from every unscoped buffer at `W1`, left at `W2`. Its arrays are split
    out of the unscoped buffers and put back at the exit contents; the generator register goes into the invariant
    and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. As region 0, except
    that its invariant names the accumulator's contents between points: it starts as the scoped rest with the
    generator register (`hin1`) and gives them back after the last point (`hout1`). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show iprop((∃ r, prngReg c r) ∗ Pipeline.prefHeld (pcfgs (F := F) 1).pre c (fun _ => fullShare) (adm (F := F) 1).1
          ∗ Pipeline.scopedRest (Pipeline.pin (pcfgs (F := F)) adm 1).spec c) ⊢ (Pipeline.ΦA spec1 c : sProp 𝕄) from by
      unfold Pipeline.ΦA
      iintro ⟨Hp, -, Hr⟩
      isplitl [Hr]; · iexact Hr
      iexact Hp).trans (hin1 (V3 m ρ) c)
  hout c := by
    rw [Pipeline.ownSems0_none]
    exact (hout1 (V3 m ρ) c).trans (show (Pipeline.ΦA spec1 c : sProp 𝕄) ⊢ iprop((∃ r, prngReg c r) ∗ BI.emp
          ∗ Pipeline.scopedRest (Pipeline.pin (pcfgs (F := F)) adm 1).spec c) from by
      unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's five segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- The program IS the run of the segments. -/
theorem main_run (c : Dev nD) : main (F := F) c = Pipeline.Seg.run (segs m ρ) := (main_chain c).trans (by chain_rfl)

set_option backward.isDefEq.respectTransparency.types false in
/-- THE RUN. At the compiled mesh, from any memory with zero counters: every weakly fair execution of the program
    terminates, nothing faulting, and every final state holds every unscoped buffer at the last boundary's
    contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c =>
      (show iprop(StableHlo.held (c : Thread nD τ) (Pipeline.ucRefs τ sig) (W5 m ρ c) ∗ R c)
          ⊢ (iprop(Tₙ m ρ c ∗ ∃ W, owes (c : Thread nD τ) (0 : CellTallies nD τ sig Unit) W) : sProp 𝕄) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-! ## The arguments end as launched

No host operation writes an argument and no region's array is one, so the fold at an argument's buffer walks
back through every boundary to the launch memory. -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_forall_not_mem (b := Proc.devRef .tc main_arg1) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_forall_not_mem (b := Proc.devRef .tc main_arg2) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_forall_not_mem (b := Proc.devRef .tc main_arg3) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- THE FRAME: every weakly fair execution terminates, nothing faulting, with the four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c)⟩) (run_all m ρ)

end Cert.KernelIdeal.Frm

end
-- ==== Proof.Spec.lean ====
/-
  THE SPECIFICATION both programs are compared with, over the extended reals, index by index.
  A weight matrix W of 4096 x 4096 entries is stored as 4-bit codes, two per packed word (the word's bits 4..7
  the even column, bits 0..3 the odd column), each code naming one of 16 fixed levels, and each run of 64
  consecutive entries (row-major) scaled by one block scale: W[o, i] = level(code(o, i)) * scale[(o * 4096 + i) / 64].
  The result is the linear layer  out[b, s, o] = (sum over i of x[b, s, i] * W[o, i]) + bias[o].
-/
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨3, ![4, 2048, 4096]⟩
abbrev SP : Shape := ⟨1, ![8388608]⟩
abbrev SA : Shape := ⟨1, ![262144]⟩
abbrev SB : Shape := ⟨1, ![4096]⟩
abbrev SH : Shape := ⟨2, ![4096, 2048]⟩
abbrev SW : Shape := ⟨2, ![4096, 4096]⟩

/-- The 16 levels' bit patterns (binary32), in code order. -/
def levelWord : Fin 16 → BitVec 32 := fun
  | 0 => 0xBF800000#32 | 1 => 0xBF3239B1#32 | 2 => 0xBF066B30#32 | 3 => 0xBECA32A0#32 | 4 => 0xBE91A24D#32 | 5 => 0xBE3D353F#32 | 6 => 0xBDBA7871#32 | 7 => 0x00000000#32
  | 8 => 0x3DA2FAFF#32 | 9 => 0x3E24CAE3#32 | 10 => 0x3E7C04DD#32 | 11 => 0x3EAD033A#32 | 12 => 0x3EE1A4B8#32 | 13 => 0x3F1007AB#32 | 14 => 0x3F3913B3#32 | 15 => 0x3F800000#32
  | _ => 0#32

/-- The level a code word names: the level at the word's value modulo 16 (a code word is below 16), as the exact
    value of its binary32 pattern. -/
def level (v : BitVec 32) : EReal :=
  FloatOps.ofBits (F := Ideal) .f32 (levelWord ⟨v.toNat % 16, Nat.mod_lt _ (by decide)⟩)

/-- The code in a packed word's bits 4..7 (an arithmetic shift right by 4, then the low four bits). -/
def hiCode (p : BitVec 32) : BitVec 32 := (p.sshiftRight' 4#32) &&& 15#32
/-- The code in a packed word's bits 0..3. -/
def loCode (p : BitVec 32) : BitVec 32 := p &&& 15#32

theorem hiCode_lt (p : BitVec 32) : (hiCode p).toNat < 16 := by
  unfold hiCode; rw [BitVec.toNat_and]; exact Nat.lt_succ_of_le Nat.and_le_right
theorem loCode_lt (p : BitVec 32) : (loCode p).toNat < 16 := by
  unfold loCode; rw [BitVec.toNat_and]; exact Nat.lt_succ_of_le Nat.and_le_right

/-- The even-column half of the weight matrix: entry (o, j) is column 2j of row o. -/
def hiArr (pw : SP.Idx → BitVec 32) (am : SA.Idx → EReal) (o : Fin 4096) (j : Fin 2048) : EReal :=
  level (hiCode (pw (ix1 ⟨o.val * 2048 + j.val, by omega⟩))) * am (ix1 ⟨o.val * 64 + j.val / 32, by omega⟩)
/-- The odd-column half: entry (o, j) is column 2j + 1 of row o. -/
def loArr (pw : SP.Idx → BitVec 32) (am : SA.Idx → EReal) (o : Fin 4096) (j : Fin 2048) : EReal :=
  level (loCode (pw (ix1 ⟨o.val * 2048 + j.val, by omega⟩))) * am (ix1 ⟨o.val * 64 + j.val / 32, by omega⟩)

/-- The weight matrix: W[o, i] is the even half at i / 2 when i is even, the odd half at i / 2 when i is odd. -/
def wt (pw : SP.Idx → BitVec 32) (am : SA.Idx → EReal) (o i : Fin 4096) : EReal :=
  if i.val % 2 = 0 then hiArr pw am o ⟨i.val / 2, by omega⟩ else loArr pw am o ⟨i.val / 2, by omega⟩

/-- The same entry written through the flat (row-major) position n = o * 4096 + i of the weight: the code is in
    word n / 2 (high bits when n is even) and the scale is number n / 64. -/
theorem wt_flat (pw : SP.Idx → BitVec 32) (am : SA.Idx → EReal) (o i : Fin 4096) :
    wt pw am o i
      = level (if (o.val * 4096 + i.val) % 2 = 0 then hiCode (pw (ix1 ⟨(o.val * 4096 + i.val) / 2, by omega⟩))
          else loCode (pw (ix1 ⟨(o.val * 4096 + i.val) / 2, by omega⟩)))
        * am (ix1 ⟨(o.val * 4096 + i.val) / 64, by omega⟩) := by
  have h2 : (o.val * 4096 + i.val) % 2 = i.val % 2 := by omega
  have hw : (o.val * 4096 + i.val) / 2 = o.val * 2048 + i.val / 2 := by omega
  have hs : (o.val * 4096 + i.val) / 64 = o.val * 64 + i.val / 2 / 32 := by omega
  unfold wt hiArr loArr
  simp only [h2, hw, hs]
  split <;> rfl

/-- The linear layer at one output entry. -/
def outAt (x : SX.Idx → EReal) (pw : SP.Idx → BitVec 32) (am : SA.Idx → EReal) (bias : SB.Idx → EReal)
    (b : Fin 4) (s : Fin 2048) (o : Fin 4096) : EReal :=
  (∑ i : Fin 4096, x (ix3 b s i) * wt pw am o i) + bias (ix1 o)

/-- THE SPECIFICATION: the result array as one function of the four argument arrays. -/
def G (x : SX.Idx → EReal) (pw : SP.Idx → BitVec 32) (am : SA.Idx → EReal) (bias : SB.Idx → EReal) : SX.Idx → EReal :=
  fun j => outAt x pw am bias (j 0) (j 1) (j 2)

/-- A sum over 4096 terms, taken as four consecutive runs of 1024 added left to right onto zero: the order in
    which a contraction tiled by 1024 accumulates it. Addition of extended reals is commutative and associative, so
    the order does not matter. -/
theorem sum_four_runs (f : Fin 4096 → EReal) :
    ∑ i : Fin 4096, f i
      = (((0 + ∑ l : Fin 1024, f ⟨l.val, by omega⟩) + ∑ l : Fin 1024, f ⟨1024 + l.val, by omega⟩)
          + ∑ l : Fin 1024, f ⟨2048 + l.val, by omega⟩) + ∑ l : Fin 1024, f ⟨3072 + l.val, by omega⟩ := by
  have e3 : ∑ i : Fin 4096, f i = ∑ i : Fin 3072, f ⟨i.val, by omega⟩ + ∑ l : Fin 1024, f ⟨3072 + l.val, by omega⟩ :=
    Fin.sum_univ_add (a := 3072) (b := 1024) f
  have e2 : ∑ i : Fin 3072, f ⟨i.val, by omega⟩ = ∑ i : Fin 2048, f ⟨i.val, by omega⟩ + ∑ l : Fin 1024, f ⟨2048 + l.val, by omega⟩ :=
    Fin.sum_univ_add (a := 2048) (b := 1024) (fun i : Fin 3072 => f ⟨i.val, by omega⟩)
  have e1 : ∑ i : Fin 2048, f ⟨i.val, by omega⟩ = ∑ i : Fin 1024, f ⟨i.val, by omega⟩ + ∑ l : Fin 1024, f ⟨1024 + l.val, by omega⟩ :=
    Fin.sum_univ_add (a := 1024) (b := 1024) (fun i : Fin 2048 => f ⟨i.val, by omega⟩)
  rw [e3, e2, e1, zero_add]

end Cert.Spec

end
-- ==== Proof.Val.Args.lean ====
/-
  The kernel program's four argument arrays read as plain functions of their indices, at the ideal instance: the
  names the value lemmas of this directory are stated over.
-/
import proofs.«426126_j63299228008743_2_alg».proof.Proof.KI.Run
import proofs.«426126_j63299228008743_2_alg».proof.Proof.Spec
import Idealize.ShloMosaic.Lib.ValueIdx
import Idealize.ShloMosaic.Lib.Pipeline.Value
import Idealize.ShloMosaic.PureOps.Ideal.Laws

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Frm
open scoped BigOperators

variable (m : (ℓ : Loc nD τ sig) → Buf (Elt Ideal) ℓ) (ρ : Dev nD → PrngReg)

/-- The four argument arrays on core `c`, as functions of their indices. -/
abbrev xArg (c : Dev nD) : S4x2048x4096.Idx → EReal := m ((c.tc : Thread nD τ).loc main_arg0)
abbrev pwArg (c : Dev nD) : S8388608.Idx → BitVec 32 := m ((c.tc : Thread nD τ).loc main_arg1)
abbrev amArg (c : Dev nD) : S262144.Idx → EReal := m ((c.tc : Thread nD τ).loc main_arg2)
abbrev biasArg (c : Dev nD) : S4096.Idx → EReal := m ((c.tc : Thread nD τ).loc main_arg3)

end Cert.KernelIdeal.Val

end
-- ==== Proof.Val.Deq.lean ====
/-
  What region 0 leaves, at the ideal instance: after its 16 grid points the two result arrays hold the even-column
  and the odd-column half of the dequantised weight matrix — each entry the level its 4-bit code names times the
  scale of its block of 64 weights (32 packed words) — as functions of the packed-weight and scale arguments.
-/
import proofs.«426126_j63299228008743_2_alg».proof.Proof.Val.Args

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Frm
open scoped BigOperators

variable (m : (ℓ : Loc nD τ sig) → Buf (Elt Ideal) ℓ) (ρ : Dev nD → PrngReg)

/-! ## One code word: the selection chain is the level -/

/-- One link of the selection chain: the level with pattern `w` when the code word `v` equals `k`, else `r`. -/
def pick (v k w : BitVec 32) (r : EReal) : EReal :=
  Scalar.select (IntOp.cmpi .eq v k) (FloatOps.ofBits (F := Ideal) .f32 w) r

/-- The selection chain at one code word: from the level of code 0, fifteen links for the codes 1 to 15, the
    later link deciding. -/
def chain (v : BitVec 32) : EReal :=
  (pick v 15#32 0x3F800000#32 (pick v 14#32 0x3F3913B3#32 (pick v 13#32 0x3F1007AB#32 (pick v 12#32 0x3EE1A4B8#32 (pick v 11#32 0x3EAD033A#32 (pick v 10#32 0x3E7C04DD#32 (pick v 9#32 0x3E24CAE3#32 (pick v 8#32 0x3DA2FAFF#32 (pick v 7#32 0x00000000#32 (pick v 6#32 0xBDBA7871#32 (pick v 5#32 0xBE3D353F#32 (pick v 4#32 0xBE91A24D#32 (pick v 3#32 0xBECA32A0#32 (pick v 2#32 0xBF066B30#32 (pick v 1#32 0xBF3239B1#32 (FloatOps.ofBits (F := Ideal) .f32 0xBF800000#32))))))))))))))))

/-- At a code word below 16 the chain selects the level the word names: exactly one link (or none, for code 0)
    has its comparison true. -/
theorem chain_eq_level (v : BitVec 32) (hv : v.toNat < 16) : chain v = Cert.Spec.level v := by
  obtain ⟨n, hn, rfl⟩ : ∃ n : Nat, n < 16 ∧ v = BitVec.ofNat 32 n :=
    ⟨v.toNat, hv, BitVec.eq_of_toNat_eq (by rw [BitVec.toNat_ofNat]; omega)⟩
  interval_cases n <;> rfl

/-! ## A tile entry -/

/-- The scale tile spread over the 32 packed columns of each block: entry (p, q) of the spread tile is the
    scale of row p, block q / 32. The tile is reshaped to 256 x 64 x 1, repeated 32 times along the new last axis,
    and reshaped to 256 x 2048: position q of a row is (q / 32, q % 32) in the middle array. -/
theorem spread_apply (x1 : Vec Ideal S256x64 .f32) (p : Fin 256) (q : Fin 2048) :
    k0_pay6 x1 (ix2 p q) = x1 (ix2 p ⟨q.val / 32, by omega⟩) := by
  have e0 : k0_pay6 x1 = shapeCast S256x2048 (broadcastTo S256x64x32 (shapeCast S256x64x1 x1 shapeCasts_S256x64_S256x64x1)
      broadcasts_S256x64x1_S256x64x32) shapeCasts_S256x64x32_S256x2048 := by
    unfold k0_pay6
    simp only [shapeCast_self]
  rw [e0]
  refine (shapeCast_apply _ _ (ix2 p q) (ix3 p (⟨q.val / 32, by omega⟩ : Fin 64) (⟨q.val % 32, by omega⟩ : Fin 32)) ?_).trans ?_
  · rw [Shape.rowMajor_val_three, Shape.rowMajor_val_two]
    show (p.val * 64 + q.val / 32) * 32 + q.val % 32 = p.val * 2048 + q.val
    omega
  refine (broadcastTo_apply _ _ _ (ix3 p (⟨q.val / 32, by omega⟩ : Fin 64) (0 : Fin 1)) ?_).trans ?_
  · intro a
    match a with
    | ⟨0, _⟩ => rfl
    | ⟨1, _⟩ => rfl
    | ⟨2, _⟩ => rfl
  refine shapeCast_apply _ _ _ (ix2 p (⟨q.val / 32, by omega⟩ : Fin 64)) ?_
  rw [Shape.rowMajor_val_three, Shape.rowMajor_val_two]
  show p.val * 64 + q.val / 32 = (p.val * 64 + q.val / 32) * 1 + 0
  omega

/-- The code the high-nibble chain is run at: the packed word shifted right by 4 (arithmetically; the shift amount
    is below the width, so it is the plain shift), then its low four bits. -/
theorem code_hi_apply (x0 : Vec Ideal S256x2048 .i32) (i : S256x2048.Idx) :
    k0_pay4 x0 i = Cert.Spec.hiCode (x0 i) := by
  have e : k0_pay4 x0 i = IntOp.andi (IntOp.shrsi .vector (k0_pay3 x0 i) 4#32) 15#32 := rfl
  have e3 : k0_pay3 x0 = x0 := shapeCast_self x0 _
  rw [e, e3]
  unfold IntOp.shrsi IntOp.andi Cert.Spec.hiCode
  rw [if_pos (by decide)]

/-- The code the low-nibble chain is run at: the packed word's low four bits. -/
theorem code_lo_apply (x0 : Vec Ideal S256x2048 .i32) (i : S256x2048.Idx) :
    k0_pay5 x0 i = Cert.Spec.loCode (x0 i) := by
  have e : k0_pay5 x0 i = IntOp.andi (k0_pay3 x0 i) 15#32 := rfl
  have e3 : k0_pay3 x0 = x0 := shapeCast_self x0 _
  rw [e, e3]
  rfl

/-- The high-nibble output tile at an entry: the level of the word's high code times the block's scale (the cast
    to the output's format is the identity on extended reals). -/
theorem hiOut_apply (x0 : Vec Ideal S256x2048 .i32) (x1 : Vec Ideal S256x64 .f32) (p : Fin 256) (q : Fin 2048) :
    hiOut x0 x1 (ix2 p q)
      = Cert.Spec.level (Cert.Spec.hiCode (x0 (ix2 p q))) * x1 (ix2 p ⟨q.val / 32, by omega⟩) := by
  have e : hiOut x0 x1 (ix2 p q) = chain (k0_pay4 x0 (ix2 p q)) * k0_pay6 x1 (ix2 p q) := rfl
  rw [e, code_hi_apply, chain_eq_level _ (Cert.Spec.hiCode_lt _), spread_apply]

/-- The low-nibble output tile at an entry: the level of the word's low code times the block's scale. -/
theorem loOut_apply (x0 : Vec Ideal S256x2048 .i32) (x1 : Vec Ideal S256x64 .f32) (p : Fin 256) (q : Fin 2048) :
    loOut x0 x1 (ix2 p q)
      = Cert.Spec.level (Cert.Spec.loCode (x0 (ix2 p q))) * x1 (ix2 p ⟨q.val / 32, by omega⟩) := by
  have e : loOut x0 x1 (ix2 p q) = chain (k0_pay5 x0 (ix2 p q)) * k0_pay6 x1 (ix2 p q) := rfl
  rw [e, code_lo_apply, chain_eq_level _ (Cert.Spec.loCode_lt _), spread_apply]

/-! ## The arrays region 0 finds: the first host stretch's two reshapes -/

/-- The packed words as region 0 finds them, a 4096 x 2048 array: the flat argument read row-major. -/
theorem v0_eq (c : Dev nD) :
    (V1 m ρ c main_v0 : S4096x2048.Idx → BitVec 32) = fun j => pwArg m c (ix1 ⟨(j 0).val * 2048 + (j 1).val, by have h0 := idx2_lt0 j; have h1 := idx2_lt1 j; omega⟩) := by
  have e : (V1 m ρ c main_v0 : S4096x2048.Idx → BitVec 32)
      = shapeCast S4096x2048 (pwArg m c) shapeCasts_S8388608_S4096x2048 := by
    show StableHlo.after hostOps0 (W0 m ρ c) (Proc.devRef .tc main_v0) = _
    after_results
    rfl
  rw [e]
  funext j
  refine shapeCast_apply _ _ j _ ?_
  rw [Shape.rowMajor_val_two, Shape.rowMajor_val_one]
  rfl

/-- The block scales as region 0 finds them, a 4096 x 64 array: the flat argument read row-major. -/
theorem v1_eq (c : Dev nD) :
    (V1 m ρ c main_v1 : S4096x64.Idx → EReal) = fun j => amArg m c (ix1 ⟨(j 0).val * 64 + (j 1).val, by have h0 := idx2_lt0 j; have h1 := idx2_lt1 j; omega⟩) := by
  have e : (V1 m ρ c main_v1 : S4096x64.Idx → EReal)
      = shapeCast S4096x64 (amArg m c) shapeCasts_S262144_S4096x64 := by
    show StableHlo.after hostOps0 (W0 m ρ c) (Proc.devRef .tc main_v1) = _
    after_results
    rfl
  rw [e]
  funext j
  refine shapeCast_apply _ _ j _ ?_
  rw [Shape.rowMajor_val_two, Shape.rowMajor_val_one]
  rfl

/-! ## Region 0's tiles as rows of the arguments -/

/-- Each of region 0's four windows moves one row tile per grid point: its block index at point `t` is `(t, 0)`. -/
theorem tile_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The grid has 16 points. -/
theorem point_lt (t : Fin cfg0.N) : t.val < 16 := lt_of_lt_of_eq t.isLt N_0

/-- The packed-word tile and the scale tile point `t` reads, under their literal vector types. -/
abbrev pwTile (c : Dev nD) (t : Fin cfg0.N) : Vec Ideal S256x2048 .i32 := iblk0 (V1 m ρ) c 0 t
abbrev amTile (c : Dev nD) (t : Fin cfg0.N) : Vec Ideal S256x64 .f32 := iblk0 (V1 m ρ) c 1 t

/-- Entry (p, q) of point `t`'s packed-word tile is word (256 t + p) * 2048 + q of the flat argument. -/
theorem pwTile_apply (c : Dev nD) (t : Fin cfg0.N) (p : Fin 256) (q : Fin 2048) :
    pwTile m ρ c t (ix2 p q)
      = pwArg m c (ix1 ⟨(t.val * 256 + p.val) * 2048 + q.val, by have := point_lt t; omega⟩) := by
  obtain ⟨e0, e1, -⟩ := tile_index t
  show (V1 m ρ c main_v0 : S4096x2048.Idx → BitVec 32) (((cfg0.win 0).blk t).view.emb (ix2 p q)) = _
  refine (congrFun (v0_eq m ρ c) _).trans ?_
  refine congrArg (pwArg m c) (congrArg ix1 (Fin.ext ?_))
  show (win0_0.index t (0 : Fin 2) * 256 + 1 * p.val) * 2048 + (win0_0.index t (1 : Fin 2) * 2048 + 1 * q.val)
    = (t.val * 256 + p.val) * 2048 + q.val
  rw [e0, e1]
  omega

/-- Entry (p, r) of point `t`'s scale tile is scale (256 t + p) * 64 + r of the flat argument. -/
theorem amTile_apply (c : Dev nD) (t : Fin cfg0.N) (p : Fin 256) (r : Fin 64) :
    amTile m ρ c t (ix2 p r)
      = amArg m c (ix1 ⟨(t.val * 256 + p.val) * 64 + r.val, by have := point_lt t; omega⟩) := by
  obtain ⟨-, -, e0, e1, -⟩ := tile_index t
  show (V1 m ρ c main_v1 : S4096x64.Idx → EReal) (((cfg0.win 1).blk t).view.emb (ix2 p r)) = _
  refine (congrFun (v1_eq m ρ c) _).trans ?_
  refine congrArg (amArg m c) (congrArg ix1 (Fin.ext ?_))
  show (win0_1.index t (0 : Fin 2) * 256 + 1 * p.val) * 64 + (win0_1.index t (1 : Fin 2) * 64 + 1 * r.val)
    = (t.val * 256 + p.val) * 64 + r.val
  rw [e0, e1]
  omega

/-- The specification's two halves at a row and column given by their flat positions. -/
theorem hiArr_at (pw : Cert.Spec.SP.Idx → BitVec 32) (am : Cert.Spec.SA.Idx → EReal) (o : Fin 4096) (j : Fin 2048)
    (n : Fin 8388608) (k : Fin 262144) (hn : n.val = o.val * 2048 + j.val) (hk : k.val = o.val * 64 + j.val / 32) :
    Cert.Spec.level (Cert.Spec.hiCode (pw (ix1 n))) * am (ix1 k) = Cert.Spec.hiArr pw am o j := by
  have en : n = ⟨o.val * 2048 + j.val, by omega⟩ := Fin.ext hn
  have ek : k = ⟨o.val * 64 + j.val / 32, by omega⟩ := Fin.ext hk
  rw [en, ek]
  rfl
theorem loArr_at (pw : Cert.Spec.SP.Idx → BitVec 32) (am : Cert.Spec.SA.Idx → EReal) (o : Fin 4096) (j : Fin 2048)
    (n : Fin 8388608) (k : Fin 262144) (hn : n.val = o.val * 2048 + j.val) (hk : k.val = o.val * 64 + j.val / 32) :
    Cert.Spec.level (Cert.Spec.loCode (pw (ix1 n))) * am (ix1 k) = Cert.Spec.loArr pw am o j := by
  have en : n = ⟨o.val * 2048 + j.val, by omega⟩ := Fin.ext hn
  have ek : k = ⟨o.val * 64 + j.val / 32, by omega⟩ := Fin.ext hk
  rw [en, ek]
  rfl

/-! ## What each point writes back, and the two result arrays -/

/-- Point `t` writes back to the first result array tile `t` of the even-column half. -/
theorem flushed_hi (c : Dev nD) (t : Fin cfg0.N) :
    (dat0 (V1 m ρ) c).flushed 2 t
      = ((cfg0.win 2).blk t).view.read (Elt Ideal) (fun j : S4096x2048.Idx => Cert.Spec.hiArr (pwArg m c) (amArg m c) (j 0) (j 1)) := by
  show (cfg0.win 2).cut (grid0.coords t) ((dat0 (V1 m ρ) c).after 2 t) = _
  rw [after0_2]
  funext y
  obtain ⟨p, q, rfl⟩ : ∃ (p : Fin 256) (q : Fin 2048), y = ix2 p q := ⟨y 0, y 1, eq_ix2 (n0 := 256) (n1 := 2048) y⟩
  obtain ⟨-, -, -, -, e0, e1, -⟩ := tile_index t
  show hiOut (pwTile m ρ c t) (amTile m ρ c t) (ix2 p q)
    = Cert.Spec.hiArr (pwArg m c) (amArg m c) ((((cfg0.win 2).blk t).view.emb (ix2 p q)) 0) ((((cfg0.win 2).blk t).view.emb (ix2 p q)) 1)
  refine (hiOut_apply (pwTile m ρ c t) (amTile m ρ c t) p q).trans ?_
  rw [pwTile_apply, amTile_apply]
  refine hiArr_at _ _ _ _ _ _ ?_ ?_
  · show (t.val * 256 + p.val) * 2048 + q.val = (win0_2.index t (0 : Fin 2) * 256 + 1 * p.val) * 2048 + (win0_2.index t (1 : Fin 2) * 2048 + 1 * q.val)
    rw [e0, e1]; omega
  · show (t.val * 256 + p.val) * 64 + q.val / 32 = (win0_2.index t (0 : Fin 2) * 256 + 1 * p.val) * 64 + (win0_2.index t (1 : Fin 2) * 2048 + 1 * q.val) / 32
    rw [e0, e1]; omega

/-- Point `t` writes back to the second result array tile `t` of the odd-column half. -/
theorem flushed_lo (c : Dev nD) (t : Fin cfg0.N) :
    (dat0 (V1 m ρ) c).flushed 3 t
      = ((cfg0.win 3).blk t).view.read (Elt Ideal) (fun j : S4096x2048.Idx => Cert.Spec.loArr (pwArg m c) (amArg m c) (j 0) (j 1)) := by
  show (cfg0.win 3).cut (grid0.coords t) ((dat0 (V1 m ρ) c).after 3 t) = _
  rw [after0_3]
  funext y
  obtain ⟨p, q, rfl⟩ : ∃ (p : Fin 256) (q : Fin 2048), y = ix2 p q := ⟨y 0, y 1, eq_ix2 (n0 := 256) (n1 := 2048) y⟩
  obtain ⟨-, -, -, -, -, -, e0, e1⟩ := tile_index t
  show loOut (pwTile m ρ c t) (amTile m ρ c t) (ix2 p q)
    = Cert.Spec.loArr (pwArg m c) (amArg m c) ((((cfg0.win 3).blk t).view.emb (ix2 p q)) 0) ((((cfg0.win 3).blk t).view.emb (ix2 p q)) 1)
  refine (loOut_apply (pwTile m ρ c t) (amTile m ρ c t) p q).trans ?_
  rw [pwTile_apply, amTile_apply]
  refine loArr_at _ _ _ _ _ _ ?_ ?_
  · show (t.val * 256 + p.val) * 2048 + q.val = (win0_3.index t (0 : Fin 2) * 256 + 1 * p.val) * 2048 + (win0_3.index t (1 : Fin 2) * 2048 + 1 * q.val)
    rw [e0, e1]; omega
  · show (t.val * 256 + p.val) * 64 + q.val / 32 = (win0_3.index t (0 : Fin 2) * 256 + 1 * p.val) * 64 + (win0_3.index t (1 : Fin 2) * 2048 + 1 * q.val) / 32
    rw [e0, e1]; omega

/-- An index of a result array is in point `t`'s tile iff each coordinate is in the tile's range on its axis. -/
theorem mem_tile_hi (t : Fin cfg0.N) (i : S4096x2048.Idx) :
    i ∈ ((cfg0.win 2).blk t).view.set ↔ ∀ a : Fin 2, win0_2.index t a * S256x2048.size a ≤ (i a).val ∧ (i a).val < win0_2.index t a * S256x2048.size a + S256x2048.size a := by
  show i ∈ ((View.whole main_v2_0).slice (win0_2.rect t)).set ↔ _
  rw [View.set_slice_whole, Rect.mem_set_unit]
  exact Iff.rfl
theorem mem_tile_lo (t : Fin cfg0.N) (i : S4096x2048.Idx) :
    i ∈ ((cfg0.win 3).blk t).view.set ↔ ∀ a : Fin 2, win0_3.index t a * S256x2048.size a ≤ (i a).val ∧ (i a).val < win0_3.index t a * S256x2048.size a + S256x2048.size a := by
  show i ∈ ((View.whole main_v2_1).slice (win0_3.rect t)).set ↔ _
  rw [View.set_slice_whole, Rect.mem_set_unit]
  exact Iff.rfl

/-- Row r of a result array is in the tile of point r / 256, and every point writes its tile back: the 16 tiles
    cover the array. -/
theorem cover_hi (i : S4096x2048.Idx) :
    ∃ t : Fin cfg0.N, (cfg0.win 2).flush t = true ∧ i ∈ ((cfg0.win 2).blk t).view.set := by
  have hi0 := idx2_lt0 i
  have hi1 := idx2_lt1 i
  obtain ⟨t, ht⟩ : ∃ t : Fin cfg0.N, t.val = (i 0).val / 256 :=
    ⟨⟨(i 0).val / 256, by rw [show cfg0.N = 16 from N_0]; omega⟩, rfl⟩
  obtain ⟨-, -, -, -, e0, e1, -⟩ := tile_index t
  refine ⟨t, flush0_2 t, ?_⟩
  rw [mem_tile_hi]
  intro a
  match a with
  | ⟨0, _⟩ => show win0_2.index t (0 : Fin 2) * 256 ≤ (i 0).val ∧ (i 0).val < win0_2.index t (0 : Fin 2) * 256 + 256; rw [e0]; omega
  | ⟨1, _⟩ => show win0_2.index t (1 : Fin 2) * 2048 ≤ (i 1).val ∧ (i 1).val < win0_2.index t (1 : Fin 2) * 2048 + 2048; rw [e1]; omega
theorem cover_lo (i : S4096x2048.Idx) :
    ∃ t : Fin cfg0.N, (cfg0.win 3).flush t = true ∧ i ∈ ((cfg0.win 3).blk t).view.set := by
  have hi0 := idx2_lt0 i
  have hi1 := idx2_lt1 i
  obtain ⟨t, ht⟩ : ∃ t : Fin cfg0.N, t.val = (i 0).val / 256 :=
    ⟨⟨(i 0).val / 256, by rw [show cfg0.N = 16 from N_0]; omega⟩, rfl⟩
  obtain ⟨-, -, -, -, -, -, e0, e1⟩ := tile_index t
  refine ⟨t, flush0_3 t, ?_⟩
  rw [mem_tile_lo]
  intro a
  match a with
  | ⟨0, _⟩ => show win0_3.index t (0 : Fin 2) * 256 ≤ (i 0).val ∧ (i 0).val < win0_3.index t (0 : Fin 2) * 256 + 256; rw [e0]; omega
  | ⟨1, _⟩ => show win0_3.index t (1 : Fin 2) * 2048 ≤ (i 1).val ∧ (i 1).val < win0_3.index t (1 : Fin 2) * 2048 + 2048; rw [e1]; omega

/-- After region 0 its first result array is the even-column half of the weight matrix. -/
theorem v2_0_eq (c : Dev nD) :
    (V2 m ρ c main_v2_0 : S4096x2048.Idx → EReal) = fun j => Cert.Spec.hiArr (pwArg m c) (amArg m c) (j 0) (j 1) := by
  have e : (V2 m ρ c main_v2_0 : S4096x2048.Idx → EReal) = (dat0 (V1 m ρ) c).arrAt 2 cfg0.N := W2_arr m ρ c 2
  rw [e]
  exact (dat0 (V1 m ρ) c).arrAt_eq_of_cover 2 _ (fun t _ => flushed_hi m ρ c t) cover_hi

/-- After region 0 its second result array is the odd-column half of the weight matrix. -/
theorem v2_1_eq (c : Dev nD) :
    (V2 m ρ c main_v2_1 : S4096x2048.Idx → EReal) = fun j => Cert.Spec.loArr (pwArg m c) (amArg m c) (j 0) (j 1) := by
  have e : (V2 m ρ c main_v2_1 : S4096x2048.Idx → EReal) = (dat0 (V1 m ρ) c).arrAt 3 cfg0.N := W2_arr m ρ c 3
  rw [e]
  exact (dat0 (V1 m ρ) c).arrAt_eq_of_cover 3 _ (fun t _ => flushed_lo m ρ c t) cover_lo

end Cert.KernelIdeal.Val

end
-- ==== Proof.Val.Host1.lean ====
/-
  What the host stretch between the two regions computes, at the ideal instance: the two halves of the weight
  matrix interleaved column by column into the 4096 x 4096 weight matrix, the input flattened to 8192 rows (a change
  of float format is the identity here), the bias as a one-row matrix — each as a function of the argument arrays.
-/
import proofs.«426126_j63299228008743_2_alg».proof.Proof.Val.Deq
import Idealize.ShloMosaic.Lib.ValueLayout

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Frm
open scoped BigOperators

/-! ## The layout operations of the stretch, read at an index (any element type) -/

section Layout
variable {α : Type}

/-- Two 4096 x 2048 arrays, each given a trailing unit axis, laid side by side along that axis and read as one
    4096 x 4096 array: column i of a row is the first array's column i / 2 when i is even, the second's when i is
    odd. The row-major position (o * 2048 + q) * 2 + r of (o, q, r) is the position o * 4096 + (2 q + r) of (o, 2 q + r). -/
theorem interleave_apply (a b : S4096x2048.Idx → α)
    (hb : S4096x2048.BroadcastsInDim S4096x2048x1 (![0, 1] : Fin 2 → Fin S4096x2048x1.rank))
    (hc : Shape.Concatenates [S4096x2048x1, S4096x2048x1] S4096x2048x2 2)
    (hs : S4096x2048x2.ShapeCasts S4096x4096) (o i : Fin 4096) :
    shapeCast S4096x4096 (concatenate S4096x2048x2 2
        [⟨S4096x2048x1, broadcastInDim S4096x2048x1 ![0, 1] hb a⟩, ⟨S4096x2048x1, broadcastInDim S4096x2048x1 ![0, 1] hb b⟩] hc) hs (ix2 o i)
      = if i.val % 2 = 0 then a (ix2 o ⟨i.val / 2, by omega⟩) else b (ix2 o ⟨i.val / 2, by omega⟩) := by
  have hq : i.val / 2 < 2048 := by omega
  have hr : i.val % 2 < 2 := by omega
  -- the reshape: (o, i) of the 4096 x 4096 array is (o, i / 2, i % 2) of the 4096 x 2048 x 2 array
  refine (shapeCast_apply _ hs (ix2 o i) (ix3 o (⟨i.val / 2, hq⟩ : Fin 2048) (⟨i.val % 2, hr⟩ : Fin 2))
    (by rw [Shape.rowMajor_val_two, Shape.rowMajor_val_three]
        show (o.val * 2048 + i.val / 2) * 2 + i.val % 2 = o.val * 4096 + i.val
        omega)).trans ?_
  by_cases h : i.val % 2 = 0
  · rw [if_pos h]
    -- the last coordinate is 0: the first piece, at (o, i / 2, 0)
    refine (concatenate_pair_apply_left (t := S4096x2048x2) (s₁ := S4096x2048x1) (s₂ := S4096x2048x1) 2 _ _ hc _ rfl
      (ix3 o (⟨i.val / 2, hq⟩ : Fin 2048) (0 : Fin 1)) (fun d => match d with
        | ⟨0, _⟩ => rfl
        | ⟨1, _⟩ => rfl
        | ⟨2, _⟩ => by show 0 = i.val % 2; omega)).trans ?_
    exact broadcastInDim_apply _ hb a _ (ix2 o (⟨i.val / 2, hq⟩ : Fin 2048)) (fun d => match d with
      | ⟨0, _⟩ => by show o.val = if (4096 : Nat) = 1 then 0 else o.val; rw [if_neg (by omega)]
      | ⟨1, _⟩ => by show i.val / 2 = if (2048 : Nat) = 1 then 0 else i.val / 2; rw [if_neg (by omega)])
  · rw [if_neg h]
    -- the last coordinate is 1: the second piece, at (o, i / 2, 0)
    refine (concatenate_pair_apply_right (t := S4096x2048x2) (s₁ := S4096x2048x1) (s₂ := S4096x2048x1) 2 _ _ hc _ rfl rfl
      (ix3 o (⟨i.val / 2, hq⟩ : Fin 2048) (0 : Fin 1)) (fun d hd => match d with
        | ⟨0, _⟩ => rfl
        | ⟨1, _⟩ => rfl
        | ⟨2, _⟩ => absurd rfl hd)
      (by show 0 + 1 = i.val % 2; omega)).trans ?_
    exact broadcastInDim_apply _ hb b _ (ix2 o (⟨i.val / 2, hq⟩ : Fin 2048)) (fun d => match d with
      | ⟨0, _⟩ => by show o.val = if (4096 : Nat) = 1 then 0 else o.val; rw [if_neg (by omega)]
      | ⟨1, _⟩ => by show i.val / 2 = if (2048 : Nat) = 1 then 0 else i.val / 2; rw [if_neg (by omega)])

/-- A 4 x 2048 x 4096 array read as 8192 rows of 4096: row r is (r / 2048, r % 2048). -/
theorem flatten_rows_apply (x : S4x2048x4096.Idx → α) (hs : S4x2048x4096.ShapeCasts S8192x4096) (r : Fin 8192) (i : Fin 4096) :
    shapeCast S8192x4096 x hs (ix2 r i)
      = x (ix3 (⟨r.val / 2048, by omega⟩ : Fin 4) (⟨r.val % 2048, Nat.mod_lt _ (by decide)⟩ : Fin 2048) i) :=
  shapeCast_apply x hs _ _ (by
    rw [Shape.rowMajor_val_two, Shape.rowMajor_val_three]
    show (r.val / 2048 * 2048 + r.val % 2048) * 4096 + i.val = r.val * 4096 + i.val
    omega)

/-- A vector of 4096 read as a one-row matrix. -/
theorem one_row_apply (x : S4096.Idx → α) (hs : S4096.ShapeCasts S1x4096) (u : Fin 1) (i : Fin 4096) :
    shapeCast S1x4096 x hs (ix2 u i) = x (ix1 i) :=
  shapeCast_apply x hs _ _ (by
    have hu : u.val = 0 := by omega
    rw [Shape.rowMajor_val_two, Shape.rowMajor_val_one]
    show i.val = u.val * 4096 + i.val
    omega)

end Layout

variable (m : (ℓ : Loc nD τ sig) → Buf (Elt Ideal) ℓ) (ρ : Dev nD → PrngReg)

/-! ## The stretch's three results as terms over the contents it starts from -/

/-- The weight matrix is the reshape of the concatenation of the two halves with a trailing unit axis. -/
theorem v6_term (c : Dev nD) :
    (V3 m ρ c main_v6 : S4096x4096.Idx → EReal)
      = shapeCast S4096x4096 (concatenate S4096x2048x2 2
          [⟨S4096x2048x1, broadcastInDim S4096x2048x1 ![0, 1] bcast_S4096x2048_S4096x2048x1_0_1 (V2 m ρ c main_v2_0 : S4096x2048.Idx → EReal)⟩,
           ⟨S4096x2048x1, broadcastInDim S4096x2048x1 ![0, 1] bcast_S4096x2048_S4096x2048x1_0_1 (V2 m ρ c main_v2_1 : S4096x2048.Idx → EReal)⟩]
          concatenates_S4096x2048x1_S4096x2048x1_S4096x2048x2_d2) shapeCasts_S4096x2048x2_S4096x4096 := by
  show StableHlo.after hostOps1 _ (Proc.devRef .tc main_v6) = _
  after_results
  rfl

/-- The flattened input is the reshape of the first argument's buffer as region 0 left it (a change of float
    format is the identity at the ideal instance). -/
theorem v8_term (c : Dev nD) :
    (V3 m ρ c main_v8 : S8192x4096.Idx → EReal)
      = shapeCast S8192x4096 (W2 m ρ c (Proc.devRef .tc main_arg0) : S4x2048x4096.Idx → EReal) shapeCasts_S4x2048x4096_S8192x4096 := by
  show StableHlo.after hostOps1 _ (Proc.devRef .tc main_v8) = _
  after_results
  rfl

/-- The bias row is the reshape of the fourth argument's buffer as region 0 left it. -/
theorem v9_term (c : Dev nD) :
    (V3 m ρ c main_v9 : S1x4096.Idx → EReal)
      = shapeCast S1x4096 (W2 m ρ c (Proc.devRef .tc main_arg3) : S4096.Idx → EReal) shapeCasts_S4096_S1x4096 := by
  show StableHlo.after hostOps1 _ (Proc.devRef .tc main_v9) = _
  after_results
  rfl

/-! ## An argument's buffer at region 0's exit is the launch's

Region 0's arrays are no argument, and the first stretch writes none. -/

theorem W2_arg0 (c : Dev nD) : (W2 m ρ c (Proc.devRef .tc main_arg0) : S4x2048x4096.Idx → EReal) = xArg m c := by
  refine (W2_of_ne m ρ c main_arg0 (by decide)).trans ?_
  show StableHlo.after hostOps0 _ (Proc.devRef .tc main_arg0) = _
  after_results

theorem W2_arg3 (c : Dev nD) : (W2 m ρ c (Proc.devRef .tc main_arg3) : S4096.Idx → EReal) = biasArg m c := by
  refine (W2_of_ne m ρ c main_arg3 (by decide)).trans ?_
  show StableHlo.after hostOps0 _ (Proc.devRef .tc main_arg3) = _
  after_results

/-! ## The three arrays region 1 is entered from -/

/-- The weight matrix region 1 finds: entry (o, i) is the specification's `wt`. -/
theorem v6_eq (c : Dev nD) :
    (V3 m ρ c main_v6 : S4096x4096.Idx → EReal) = fun j => Cert.Spec.wt (pwArg m c) (amArg m c) (j 0) (j 1) := by
  rw [v6_term m ρ c, v2_0_eq m ρ c, v2_1_eq m ρ c]
  funext j
  refine (congrArg _ (eq_ix2 j)).trans ?_
  refine (interleave_apply _ _ _ _ _ (j 0) (j 1)).trans ?_
  unfold Cert.Spec.wt
  rfl

/-- The input region 1 finds, 8192 x 4096: row r is the input's row (r / 2048, r % 2048). -/
theorem v8_eq (c : Dev nD) :
    (V3 m ρ c main_v8 : S8192x4096.Idx → EReal)
      = fun j => xArg m c (ix3 (⟨(j 0).val / 2048, by have h0 := idx2_lt0 j; omega⟩ : Fin 4)
          (⟨(j 0).val % 2048, Nat.mod_lt _ (by decide)⟩ : Fin 2048) (j 1)) := by
  rw [v8_term m ρ c, W2_arg0 m ρ c]
  funext j
  refine (congrArg _ (eq_ix2 j)).trans ?_
  exact flatten_rows_apply _ _ (j 0) (j 1)

/-- The bias region 1 finds, as a one-row matrix. -/
theorem v9_eq (c : Dev nD) :
    (V3 m ρ c main_v9 : S1x4096.Idx → EReal) = fun j => biasArg m c (ix1 (j 1)) := by
  rw [v9_term m ρ c, W2_arg3 m ρ c]
  funext j
  refine (congrArg _ (eq_ix2 j)).trans ?_
  exact one_row_apply _ _ (j 0) (j 1)

end Cert.KernelIdeal.Val

end
-- ==== Proof.Val.Mat.lean ====
/-
  What region 1 leaves, at the ideal instance, for ANY contents `V` it is entered from: after its 64 grid points the
  result array holds, at (r, o), the sum over the 4096 input features of lhs[r, i] * rhs[o, i], plus the bias row at
  o. The grid point (i, j, k) adds the k-th run of 1024 features to the accumulator of the output tile (i, j); the
  four runs are added left to right onto zero, which is the whole sum because addition of extended reals is
  commutative and associative (`Cert.Spec.sum_four_runs`).
-/
import proofs.«426126_j63299228008743_2_alg».proof.Proof.KI.R1
import proofs.«426126_j63299228008743_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Frm
open scoped BigOperators

/-! ## The body's three payloads at an index -/

/-- The record of the body's one matrix product: both operands contracted on their axis 1. -/
abbrev DD : DotDims S2048x1024 S1024x1024 S2048x1024 := dot_S2048x1024_S1024x1024_S2048x1024_1_1_0_0_n_n

theorem lhs_DD_0 (j : S2048x1024.Idx) (k : DD.contr.Idx) :
    (dot_S2048x1024_S1024x1024_S2048x1024_1_1_0_0_n_n.lhsIdx j k 0 : ℕ) = j 0 := by
  simp [DotDims.lhsIdx, dot_S2048x1024_S1024x1024_S2048x1024_1_1_0_0_n_n]; rfl
theorem lhs_DD_1 (j : S2048x1024.Idx) (k : DD.contr.Idx) :
    (dot_S2048x1024_S1024x1024_S2048x1024_1_1_0_0_n_n.lhsIdx j k 1 : ℕ) = k ⟨0, by decide⟩ := by
  simp [DotDims.lhsIdx, dot_S2048x1024_S1024x1024_S2048x1024_1_1_0_0_n_n]; rfl
theorem rhs_DD_0 (j : S2048x1024.Idx) (k : DD.contr.Idx) :
    (dot_S2048x1024_S1024x1024_S2048x1024_1_1_0_0_n_n.rhsIdx j k 0 : ℕ) = j 1 := by
  simp [DotDims.rhsIdx, dot_S2048x1024_S1024x1024_S2048x1024_1_1_0_0_n_n]; rfl
theorem rhs_DD_1 (j : S2048x1024.Idx) (k : DD.contr.Idx) :
    (dot_S2048x1024_S1024x1024_S2048x1024_1_1_0_0_n_n.rhsIdx j k 1 : ℕ) = k ⟨0, by decide⟩ := by
  simp [DotDims.rhsIdx, dot_S2048x1024_S1024x1024_S2048x1024_1_1_0_0_n_n]; rfl

/-- The matrix product onto a zero accumulator, at (p, q): row p of the left operand against row q of the right. -/
theorem matmul_apply_pq (a : FVec Ideal S2048x1024 .bf16) (b : FVec Ideal S1024x1024 .bf16) (p : Fin 2048) (q : Fin 1024) :
    matmul dot_S2048x1024_S1024x1024_S2048x1024_1_1_0_0_n_n none a b (constant (F := Ideal) S2048x1024 .f32 0x00000000#32) (ix2 p q)
      = ∑ l : Fin 1024, a (ix2 p l) * b (ix2 q l) := by
  show FloatOps.matmul _ none a b _ (ix2 p q) = _
  rw [Ideal.matmul_constant_zero_apply, ← Equiv.sum_comp (contrEquiv1 DD 1024 rfl rfl).symm]
  refine Finset.sum_congr rfl fun l _ => ?_
  have hk := contrEquiv1_symm_val DD 1024 rfl rfl l
  have el : DD.lhsIdx (ix2 p q) ((contrEquiv1 DD 1024 rfl rfl).symm l) = ix2 p l := by
    funext ax; apply Fin.ext
    match ax with
    | ⟨0, _⟩ => exact lhs_DD_0 _ _
    | ⟨1, _⟩ => exact (lhs_DD_1 _ _).trans hk
  have er : DD.rhsIdx (ix2 p q) ((contrEquiv1 DD 1024 rfl rfl).symm l) = ix2 q l := by
    funext ax; apply Fin.ext
    match ax with
    | ⟨0, _⟩ => exact rhs_DD_0 _ _
    | ⟨1, _⟩ => exact (rhs_DD_1 _ _).trans hk
  rw [el, er]

/-- The reset tile is zero everywhere. -/
theorem pay1_apply (p : Fin 2048) (q : Fin 1024) : (k1_pay1 (F := Ideal)) (ix2 p q) = 0 := by
  unfold k1_pay1
  rw [shapeCast_self]
  exact Ideal.ofBits_zero_f32

/-- The accumulation step at (p, q): the accumulator there plus row p of the left tile against row q of the right. -/
theorem pay2_apply (acc : Vec Ideal S2048x1024 .f32) (a : Vec Ideal S2048x1024 .bf16) (b : Vec Ideal S1024x1024 .bf16)
    (p : Fin 2048) (q : Fin 1024) :
    k1_pay2 acc a b (ix2 p q) = acc (ix2 p q) + ∑ l : Fin 1024, a (ix2 p l) * b (ix2 q l) := by
  unfold k1_pay2
  rw [shapeCast_self, shapeCast_self, shapeCast_self, addf_apply]
  exact congrArg (fun z => acc (ix2 p q) + z) (matmul_apply_pq a b p q)

/-- The epilogue at (p, q): the accumulator there plus the bias tile's one row at q. -/
theorem pay3_apply (acc : Vec Ideal S2048x1024 .f32) (row : Vec Ideal S1x1024 .f32) (p : Fin 2048) (q : Fin 1024) :
    k1_pay3 acc row (ix2 p q) = acc (ix2 p q) + row (ix2 (0 : Fin 1) q) := by
  unfold k1_pay3
  rw [shapeCast_self, addf_apply]
  exact congrArg (fun z => acc (ix2 p q) + z) (broadcastTo_1b_ab_apply row broadcasts_S1x1024_S2048x1024 p q)

/-! ## The index maps, decided once over the grid: point t is (t / 16, t / 4 % 4, t % 4) -/

theorem idx_facts : ∀ t : Fin cfg1.N,
    win1_0.index t (0 : Fin 2) = t.val / 16 ∧ win1_0.index t (1 : Fin 2) = t.val % 4
    ∧ win1_1.index t (0 : Fin 2) = t.val / 4 % 4 ∧ win1_1.index t (1 : Fin 2) = t.val % 4
    ∧ win1_2.index t (0 : Fin 2) = 0 ∧ win1_2.index t (1 : Fin 2) = t.val / 4 % 4
    ∧ win1_3.index t (0 : Fin 2) = t.val / 16 ∧ win1_3.index t (1 : Fin 2) = t.val / 4 % 4 :=
  (by decide +kernel : ∀ t : Fin grid1.N, _)

variable (V : (c : Dev nD) → (b : Ref sig .tc) → Buf (Elt Ideal) ((c : Thread nD τ).loc b))

/-- Region 1's three input arrays as it finds them, as functions of their indices. -/
abbrev lhsArr (c : Dev nD) : S8192x4096.Idx → EReal := V c main_v8
abbrev rhsArr (c : Dev nD) : S4096x4096.Idx → EReal := V c main_v6
abbrev biasRow (c : Dev nD) : S1x4096.Idx → EReal := V c main_v9

/-- The same arrays read at natural-number coordinates (zero outside the array, which is never consulted). -/
def lhsN (c : Dev nD) (r i : ℕ) : EReal := if h : r < 8192 ∧ i < 4096 then lhsArr V c (ix2 ⟨r, h.1⟩ ⟨i, h.2⟩) else 0
def rhsN (c : Dev nD) (o i : ℕ) : EReal := if h : o < 4096 ∧ i < 4096 then rhsArr V c (ix2 ⟨o, h.1⟩ ⟨i, h.2⟩) else 0
def biasN (c : Dev nD) (o : ℕ) : EReal := if h : o < 4096 then biasRow V c (ix2 (0 : Fin 1) ⟨o, h⟩) else 0

/-- The left tile at point t is rows 2048 (t / 16) .. of the left array, features 1024 (t % 4) .. -/
theorem lhsBlk_apply (c : Dev nD) (t : Fin cfg1.N) (p : Fin 2048) (l : Fin 1024) :
    (iblk1 V c 0 t : Vec Ideal S2048x1024 .bf16) (ix2 p l)
      = lhsN V c (2048 * (t.val / 16) + p.val) (1024 * (t.val % 4) + l.val) := by
  have hN : t.val < 64 := lt_of_lt_of_eq t.isLt N_1
  obtain ⟨e0, e1, -⟩ := idx_facts t
  unfold lhsN
  rw [dif_pos ⟨by omega, by omega⟩]
  unfold iblk1
  rw [View.read_apply]
  show V c main_v8 _ = V c main_v8 _
  congr 1
  funext a; apply Fin.ext
  match a with
  | ⟨0, _⟩ => show win1_0.index t (0 : Fin 2) * 2048 + 1 * p.val = 2048 * (t.val / 16) + p.val; rw [e0]; omega
  | ⟨1, _⟩ => show win1_0.index t (1 : Fin 2) * 1024 + 1 * l.val = 1024 * (t.val % 4) + l.val; rw [e1]; omega

/-- The right tile at point t is rows 1024 (t / 4 % 4) .. of the right array, features 1024 (t % 4) .. -/
theorem rhsBlk_apply (c : Dev nD) (t : Fin cfg1.N) (q : Fin 1024) (l : Fin 1024) :
    (iblk1 V c 1 t : Vec Ideal S1024x1024 .bf16) (ix2 q l)
      = rhsN V c (1024 * (t.val / 4 % 4) + q.val) (1024 * (t.val % 4) + l.val) := by
  have hN : t.val < 64 := lt_of_lt_of_eq t.isLt N_1
  obtain ⟨-, -, e0, e1, -⟩ := idx_facts t
  unfold rhsN
  rw [dif_pos ⟨by omega, by omega⟩]
  unfold iblk1
  rw [View.read_apply]
  show V c main_v6 _ = V c main_v6 _
  congr 1
  funext a; apply Fin.ext
  match a with
  | ⟨0, _⟩ => show win1_1.index t (0 : Fin 2) * 1024 + 1 * q.val = 1024 * (t.val / 4 % 4) + q.val; rw [e0]; omega
  | ⟨1, _⟩ => show win1_1.index t (1 : Fin 2) * 1024 + 1 * l.val = 1024 * (t.val % 4) + l.val; rw [e1]; omega

/-- The bias tile at point t is columns 1024 (t / 4 % 4) .. of the bias row. -/
theorem biasBlk_apply (c : Dev nD) (t : Fin cfg1.N) (q : Fin 1024) :
    (iblk1 V c 2 t : Vec Ideal S1x1024 .f32) (ix2 (0 : Fin 1) q) = biasN V c (1024 * (t.val / 4 % 4) + q.val) := by
  have hN : t.val < 64 := lt_of_lt_of_eq t.isLt N_1
  obtain ⟨-, -, -, -, e0, e1, -⟩ := idx_facts t
  unfold biasN
  rw [dif_pos (by omega)]
  unfold iblk1
  rw [View.read_apply]
  show V c main_v9 _ = V c main_v9 _
  congr 1
  funext a; apply Fin.ext
  match a with
  | ⟨0, _⟩ => show win1_2.index t (0 : Fin 2) * 1 + 1 * 0 = 0; rw [e0]
  | ⟨1, _⟩ => show win1_2.index t (1 : Fin 2) * 1024 + 1 * q.val = 1024 * (t.val / 4 % 4) + q.val; rw [e1]; omega

/-! ## The accumulator after each point -/

/-- The r-th run of 1024 products of row 2048 i + p of the left array and row 1024 j + q of the right array. -/
def runSum (c : Dev nD) (i j r : ℕ) (p : Fin 2048) (q : Fin 1024) : EReal :=
  ∑ l : Fin 1024, lhsN V c (2048 * i + p.val) (1024 * r + l.val) * rhsN V c (1024 * j + q.val) (1024 * r + l.val)

/-- The runs 0 .. k added left to right onto zero. -/
def partSum (c : Dev nD) (i j : ℕ) (p : Fin 2048) (q : Fin 1024) : ℕ → EReal
  | 0 => 0 + runSum V c i j 0 p q
  | k + 1 => partSum c i j p q k + runSum V c i j (k + 1) p q

/-- One accumulation step at point n = (i, j, k) adds the k-th run to the accumulator. -/
theorem step_eq (c : Dev nD) (acc : Vec Ideal S2048x1024 .f32) (n : ℕ) (hn : n < cfg1.N) (p : Fin 2048) (q : Fin 1024) :
    k1_pay2 acc (iblk1 V c 0 ⟨n, hn⟩) (iblk1 V c 1 ⟨n, hn⟩) (ix2 p q)
      = acc (ix2 p q) + runSum V c (n / 16) (n / 4 % 4) (n % 4) p q := by
  refine (pay2_apply acc (iblk1 V c 0 ⟨n, hn⟩) (iblk1 V c 1 ⟨n, hn⟩) p q).trans ?_
  unfold runSum
  refine congrArg (fun z => acc (ix2 p q) + z) (Finset.sum_congr rfl fun l _ => ?_)
  exact congrArg₂ (· * ·) (lhsBlk_apply V c ⟨n, hn⟩ p l) (rhsBlk_apply V c ⟨n, hn⟩ q l)

/-- THE INVARIANT: after the point n = (i, j, k) the accumulator holds, at (p, q), the runs 0 .. k of the products of
    row 2048 i + p of the left array and row 1024 j + q of the right array, added left to right onto zero. -/
theorem scr_eq (c : Dev nD) (p : Fin 2048) (q : Fin 1024) : ∀ (n : ℕ) (hn : n < cfg1.N),
    scrAt1 V c n hn (ix2 p q) = partSum V c (n / 16) (n / 4 % 4) p q (n % 4)
  | 0, hn => by
    show k1_pay2 (k1_pay1 (F := Ideal)) (iblk1 V c 0 ⟨0, hn⟩) (iblk1 V c 1 ⟨0, hn⟩) (ix2 p q) = _
    rw [step_eq V c _ 0 hn p q, pay1_apply]
    rfl
  | n + 1, hn => by
    by_cases h : (n + 1) % 4 = 0
    · have e : scrAt1 V c (n + 1) hn
          = k1_pay2 (k1_pay1 (F := Ideal)) (iblk1 V c 0 ⟨n + 1, hn⟩) (iblk1 V c 1 ⟨n + 1, hn⟩) := if_pos h
      rw [e, step_eq V c _ (n + 1) hn p q, pay1_apply, h]
      rfl
    · have e : scrAt1 V c (n + 1) hn
          = k1_pay2 (scrAt1 V c n (Nat.lt_of_succ_lt hn)) (iblk1 V c 0 ⟨n + 1, hn⟩) (iblk1 V c 1 ⟨n + 1, hn⟩) := if_neg h
      rw [e, step_eq V c _ (n + 1) hn p q, scr_eq c p q n]
      have h1 : (n + 1) / 16 = n / 16 := by omega
      have h2 : (n + 1) / 4 % 4 = n / 4 % 4 := by omega
      have h3 : (n + 1) % 4 = n % 4 + 1 := by omega
      rw [h1, h2, h3]
      rfl

/-- What the output tile holds after a point: the accumulator there plus the bias. -/
theorem out_eq (c : Dev nD) (t : Fin cfg1.N) (p : Fin 2048) (q : Fin 1024) :
    outAt1 V c t (ix2 p q)
      = partSum V c (t.val / 16) (t.val / 4 % 4) p q (t.val % 4) + biasN V c (1024 * (t.val / 4 % 4) + q.val) := by
  unfold outAt1
  refine (pay3_apply (scrAt1 V c t.val t.isLt) (iblk1 V c 2 t) p q).trans ?_
  rw [scr_eq V c p q t.val t.isLt, biasBlk_apply V c t q]

/-! ## The specification on a tile -/

/-- The matrix product with bias, as one function of region 1's three input arrays. -/
def mmOut (c : Dev nD) : S8192x4096.Idx → EReal := fun j =>
  (∑ i : Fin 4096, lhsArr V c (ix2 (j 0) i) * rhsArr V c (ix2 (j 1) i)) + biasRow V c (ix2 (0 : Fin 1) (j 1))

/-- A run of 1024 consecutive features of row R = 2048 i + p against row O = 1024 j + q is the r-th run sum. -/
theorem run_eq (c : Dev nD) (i j r : ℕ) (p : Fin 2048) (q : Fin 1024) (R : Fin 8192) (O : Fin 4096)
    (hR : R.val = 2048 * i + p.val) (hO : O.val = 1024 * j + q.val)
    (g : Fin 1024 → Fin 4096) (hg : ∀ l, (g l).val = 1024 * r + l.val) :
    ∑ l : Fin 1024, lhsArr V c (ix2 R (g l)) * rhsArr V c (ix2 O (g l)) = runSum V c i j r p q := by
  unfold runSum lhsN rhsN
  refine Finset.sum_congr rfl fun l _ => ?_
  have hRl := R.isLt
  have hOl := O.isLt
  have hgl := (g l).isLt
  have hgv := hg l
  rw [dif_pos ⟨by omega, by omega⟩, dif_pos ⟨by omega, by omega⟩]
  have eR : ∀ h, R = (⟨2048 * i + p.val, h⟩ : Fin 8192) := fun h => Fin.ext hR
  have eO : ∀ h, O = (⟨1024 * j + q.val, h⟩ : Fin 4096) := fun h => Fin.ext hO
  have eg : ∀ h, g l = (⟨1024 * r + l.val, h⟩ : Fin 4096) := fun h => Fin.ext hgv
  rw [← eR, ← eO, ← eg]

/-- On the output tile (i, j) the specification is the four runs added left to right onto zero, plus the bias. -/
theorem mmOut_tile (c : Dev nD) (i j : ℕ) (p : Fin 2048) (q : Fin 1024) (R : Fin 8192) (O : Fin 4096)
    (hR : R.val = 2048 * i + p.val) (hO : O.val = 1024 * j + q.val) :
    mmOut V c (ix2 R O) = partSum V c i j p q 3 + biasN V c (1024 * j + q.val) := by
  show (∑ x : Fin 4096, lhsArr V c (ix2 R x) * rhsArr V c (ix2 O x)) + biasRow V c (ix2 (0 : Fin 1) O) = _
  refine congrArg₂ (· + ·) ?_ ?_
  · rw [Cert.Spec.sum_four_runs (fun x => lhsArr V c (ix2 R x) * rhsArr V c (ix2 O x))]
    show (((0 + _) + _) + _) + _
      = (((0 + runSum V c i j 0 p q) + runSum V c i j 1 p q) + runSum V c i j 2 p q) + runSum V c i j 3 p q
    refine congrArg₂ (· + ·) (congrArg₂ (· + ·) (congrArg₂ (· + ·) (congrArg (fun z => 0 + z) ?_) ?_) ?_) ?_
    · exact run_eq V c i j 0 p q R O hR hO _ (fun l => by show l.val = 1024 * 0 + l.val; omega)
    · exact run_eq V c i j 1 p q R O hR hO _ (fun l => by show 1024 + l.val = 1024 * 1 + l.val; omega)
    · exact run_eq V c i j 2 p q R O hR hO _ (fun l => by show 2048 + l.val = 1024 * 2 + l.val; omega)
    · exact run_eq V c i j 3 p q R O hR hO _ (fun l => by show 3072 + l.val = 1024 * 3 + l.val; omega)
  · have hOl := O.isLt
    unfold biasN
    rw [dif_pos (by omega)]
    have eO : ∀ h, O = (⟨1024 * j + q.val, h⟩ : Fin 4096) := fun h => Fin.ext hO
    rw [← eO]

/-! ## From the tiles to the array -/

/-- What a point with k = 3 writes back is its tile of the specification. -/
theorem flushed_eq (c : Dev nD) (t : Fin cfg1.N) (hf : (cfg1.win 3).flush t = true) :
    (dat1 V c).flushed 3 t = ((cfg1.win 3).blk t).view.read (Elt Ideal) (mmOut V c) := by
  have hN : t.val < 64 := lt_of_lt_of_eq t.isLt N_1
  have h3 : t.val % 4 = 3 := (flush1_3 t).mp hf
  obtain ⟨-, -, -, -, -, -, e0, e1⟩ := idx_facts t
  show (cfg1.win 3).cut (grid1.coords t) ((dat1 V c).after 3 t) = _
  rw [after1_3]
  funext y
  obtain ⟨p, q, rfl⟩ : ∃ (p : Fin 2048) (q : Fin 1024), y = ix2 p q := ⟨y 0, y 1, eq_ix2 y⟩
  rw [View.read_apply]
  show outAt1 V c t (ix2 p q) = mmOut V c (((cfg1.win 3).blk t).view.emb (ix2 p q))
  rw [out_eq V c t p q, h3]
  have hp := p.isLt
  have hq := q.isLt
  have em : ((cfg1.win 3).blk t).view.emb (ix2 p q)
      = ix2 (⟨2048 * (t.val / 16) + p.val, by omega⟩ : Fin 8192) (⟨1024 * (t.val / 4 % 4) + q.val, by omega⟩ : Fin 4096) := by
    funext a; apply Fin.ext
    match a with
    | ⟨0, _⟩ => show win1_3.index t (0 : Fin 2) * 2048 + 1 * p.val = 2048 * (t.val / 16) + p.val; rw [e0]; omega
    | ⟨1, _⟩ => show win1_3.index t (1 : Fin 2) * 1024 + 1 * q.val = 1024 * (t.val / 4 % 4) + q.val; rw [e1]; omega
  rw [em]
  exact (mmOut_tile V c (t.val / 16) (t.val / 4 % 4) p q _ _ rfl rfl).symm

/-- An index of the result array is in point t's tile iff each coordinate is in the tile's range on its axis. -/
theorem mem_blk (t : Fin cfg1.N) (i : S8192x4096.Idx) :
    i ∈ ((cfg1.win 3).blk t).view.set
      ↔ ∀ a : Fin 2, win1_3.index t a * S2048x1024.size a ≤ (i a).val
          ∧ (i a).val < win1_3.index t a * S2048x1024.size a + S2048x1024.size a := by
  show i ∈ ((View.whole main_v10).slice (win1_3.rect t)).set ↔ _
  rw [View.set_slice_whole, Rect.mem_set_unit]
  exact Iff.rfl

/-- Row r, column o of the result lies in the tile the point (r / 2048, o / 1024, 3) writes back. -/
theorem cover (i : S8192x4096.Idx) :
    ∃ t : Fin cfg1.N, (cfg1.win 3).flush t = true ∧ i ∈ ((cfg1.win 3).blk t).view.set := by
  have h0 : (i 0).val < 8192 := (i 0).isLt
  have h1 : (i 1).val < 4096 := (i 1).isLt
  obtain ⟨t, ht⟩ : ∃ t : Fin cfg1.N, t.val = (i 0).val / 2048 * 16 + (i 1).val / 1024 * 4 + 3 :=
    ⟨⟨(i 0).val / 2048 * 16 + (i 1).val / 1024 * 4 + 3, lt_of_lt_of_eq (by omega) N_1.symm⟩, rfl⟩
  obtain ⟨-, -, -, -, -, -, e0, e1⟩ := idx_facts t
  refine ⟨t, (flush1_3 t).mpr (by omega), ?_⟩
  rw [mem_blk]
  intro a
  match a with
  | ⟨0, _⟩ =>
    show win1_3.index t (0 : Fin 2) * 2048 ≤ (i 0).val ∧ (i 0).val < win1_3.index t (0 : Fin 2) * 2048 + 2048
    rw [e0]; omega
  | ⟨1, _⟩ =>
    show win1_3.index t (1 : Fin 2) * 1024 ≤ (i 1).val ∧ (i 1).val < win1_3.index t (1 : Fin 2) * 1024 + 1024
    rw [e1]; omega

/-- After region 1 its result array is the matrix product with bias of the arrays it was entered from. -/
theorem v10_eq (c : Dev nD) :
    ((dat1 V c).arrAt 3 cfg1.N : S8192x4096.Idx → EReal) = mmOut V c :=
  (dat1 V c).arrAt_eq_of_cover 3 (mmOut V c) (fun t hf => flushed_eq V c t hf) (cover)

end Cert.KernelIdeal.Val

end
-- ==== Proof.Val.Kernel.lean ====
/-
  The kernel program's result at the ideal instance: the last boundary's contents of the result buffer are the
  specification `Cert.Spec.G` of the four argument arrays — the dequantised halves interleaved into the weight matrix
  (region 0 and the host stretch after it), the tiled matrix product with bias (region 1), the final reshape.
-/
import proofs.«426126_j63299228008743_2_alg».proof.Proof.Val.Host1
import proofs.«426126_j63299228008743_2_alg».proof.Proof.Val.Mat

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Frm
open scoped BigOperators

/-- 8192 rows of 4096 read as a 4 x 2048 x 4096 array: entry (b, s, o) is row b * 2048 + s, column o. -/
theorem unflatten_rows_apply {α : Type} (y : S8192x4096.Idx → α) (hs : S8192x4096.ShapeCasts S4x2048x4096)
    (b : Fin 4) (s : Fin 2048) (o : Fin 4096) :
    shapeCast S4x2048x4096 y hs (ix3 b s o) = y (ix2 (⟨b.val * 2048 + s.val, by omega⟩ : Fin 8192) o) :=
  shapeCast_apply y hs _ _ (by
    rw [Shape.rowMajor_val_two, Shape.rowMajor_val_three]
    show (b.val * 2048 + s.val) * 4096 + o.val = (b.val * 2048 + s.val) * 4096 + o.val
    rfl)

/-- Row b * 2048 + s of the flattened input is the input's row (b, s). -/
theorem row_split (x : S4x2048x4096.Idx → EReal) (b : Fin 4) (s : Fin 2048) (i : Fin 4096)
    (h0 : (b.val * 2048 + s.val) / 2048 < 4) (h1 : (b.val * 2048 + s.val) % 2048 < 2048) :
    x (ix3 (⟨(b.val * 2048 + s.val) / 2048, h0⟩ : Fin 4) (⟨(b.val * 2048 + s.val) % 2048, h1⟩ : Fin 2048) i) = x (ix3 b s i) := by
  have hb : (⟨(b.val * 2048 + s.val) / 2048, h0⟩ : Fin 4) = b := Fin.ext (by show (b.val * 2048 + s.val) / 2048 = b.val; omega)
  have hs : (⟨(b.val * 2048 + s.val) % 2048, h1⟩ : Fin 2048) = s := Fin.ext (by show (b.val * 2048 + s.val) % 2048 = s.val; omega)
  rw [hb, hs]

variable (m : (ℓ : Loc nD τ sig) → Buf (Elt Ideal) ℓ) (ρ : Dev nD → PrngReg)

/-- Region 1's result at row b * 2048 + s, column o, entered from what the host stretch before it leaves, is the
    linear layer's entry (b, s, o). -/
theorem mm_spec (c : Dev nD) (b : Fin 4) (s : Fin 2048) (o : Fin 4096) :
    mmOut (V3 m ρ) c (ix2 (⟨b.val * 2048 + s.val, by omega⟩ : Fin 8192) o)
      = Cert.Spec.outAt (xArg m c) (pwArg m c) (amArg m c) (biasArg m c) b s o := by
  have hl : lhsArr (V3 m ρ) c = _ := v8_eq m ρ c
  have hr : rhsArr (V3 m ρ) c = _ := v6_eq m ρ c
  have hbias : biasRow (V3 m ρ) c = _ := v9_eq m ρ c
  unfold mmOut Cert.Spec.outAt
  rw [hl, hr, hbias]
  refine congrArg (· + biasArg m c (ix1 o)) (Finset.sum_congr rfl fun i _ => ?_)
  exact congrArg (· * Cert.Spec.wt (pwArg m c) (amArg m c) o i) (row_split (xArg m c) b s i _ _)

/-- The result buffer at the return is the reshape of region 1's result array as region 1 left it. -/
theorem v11_term (c : Dev nD) :
    (W5 m ρ c (Proc.devRef .tc main_v11) : S4x2048x4096.Idx → EReal)
      = shapeCast S4x2048x4096 (W4 m ρ c (Proc.devRef .tc main_v10) : S8192x4096.Idx → EReal) shapeCasts_S8192x4096_S4x2048x4096 := by
  show StableHlo.after hostOps2 _ (Proc.devRef .tc main_v11) = _
  after_results
  rfl

/-- Region 1's result array at its exit is the matrix product with bias of the arrays it was entered from. -/
theorem v10_W4 (c : Dev nD) : (W4 m ρ c (Proc.devRef .tc main_v10) : S8192x4096.Idx → EReal) = mmOut (V3 m ρ) c :=
  (W4_arr m ρ c 3).trans (v10_eq (V3 m ρ) c)

/-- The result buffer at the return is the specification of the arguments. -/
theorem result_eq (c : Dev nD) :
    (W5 m ρ c (Proc.devRef .tc main_v11) : S4x2048x4096.Idx → EReal)
      = Cert.Spec.G (xArg m c) (pwArg m c) (amArg m c) (biasArg m c) := by
  rw [v11_term m ρ c, v10_W4 m ρ c]
  funext j
  refine (congrArg _ (eq_ix3 j)).trans ?_
  refine (unflatten_rows_apply _ _ (j 0) (j 1) (j 2)).trans ?_
  exact mm_spec m ρ c (j 0) (j 1) (j 2)

end Cert.KernelIdeal.Val

end
-- ==== Proof.Ref.Run.lean ====
/-
  The reference program's run, read back: the program is a straight line of 32 host operations, so every weakly
  fair execution terminates with each buffer at the composition of the operations' pure functions of the arguments.
-/
import proofs.«426126_j63299228008743_2_alg».proof.ReferenceIdeal
import proofs.«426126_j63299228008743_2_alg».proof.Proof.Gen.ReferenceIdeal
import Idealize.ShloMosaic.Lib.StableHlo.Run

noncomputable section

namespace Cert.ReferenceIdeal.Hand

open Idealize.ShloMosaic Idealize.ShloMosaic.TcCoe Idealize.SL.Sem Idealize.ShloMosaic.StableHlo
open Cert.ReferenceIdeal Cert.ReferenceIdeal.Gen

variable {F : FTy → Type} [FloatOps F]

/-- The reference's 32 operations, in order. -/
abbrev ops : List (HloOp τ sig (Elt F)) :=
  [
    nullary main_cst (fun i => FloatOps.ofBits .f32 (lit0 (S16.rowMajor i))),
    nullary main_c (constantI S_ 32 4#32),
    unary main_c main_v0 (broadcastInDim S8388608 ![] bcast_S_S8388608 : (⟨S_, .i32⟩ : BufTy).Contents (Elt F) → (⟨S8388608, .i32⟩ : BufTy).Contents (Elt F)),
    binary main_arg1 main_v0 main_v1 (Host.shrsi : (⟨S8388608, .i32⟩ : BufTy).Contents (Elt F) → (⟨S8388608, .i32⟩ : BufTy).Contents (Elt F) → (⟨S8388608, .i32⟩ : BufTy).Contents (Elt F)),
    nullary main_c_0 (constantI S_ 32 15#32),
    unary main_c_0 main_v2 (broadcastInDim S8388608 ![] bcast_S_S8388608 : (⟨S_, .i32⟩ : BufTy).Contents (Elt F) → (⟨S8388608, .i32⟩ : BufTy).Contents (Elt F)),
    binary main_v1 main_v2 main_v3 (andi : (⟨S8388608, .i32⟩ : BufTy).Contents (Elt F) → (⟨S8388608, .i32⟩ : BufTy).Contents (Elt F) → (⟨S8388608, .i32⟩ : BufTy).Contents (Elt F)),
    nullary main_c_1 (constantI S_ 32 15#32),
    unary main_c_1 main_v4 (broadcastInDim S8388608 ![] bcast_S_S8388608 : (⟨S_, .i32⟩ : BufTy).Contents (Elt F) → (⟨S8388608, .i32⟩ : BufTy).Contents (Elt F)),
    binary main_arg1 main_v4 main_v5 (andi : (⟨S8388608, .i32⟩ : BufTy).Contents (Elt F) → (⟨S8388608, .i32⟩ : BufTy).Contents (Elt F) → (⟨S8388608, .i32⟩ : BufTy).Contents (Elt F)),
    unary main_v3 main_v6 (broadcastInDim S8388608x1 ![0] bcast_S8388608_S8388608x1_0 : (⟨S8388608, .i32⟩ : BufTy).Contents (Elt F) → (⟨S8388608x1, .i32⟩ : BufTy).Contents (Elt F)),
    unary main_v5 main_v7 (broadcastInDim S8388608x1 ![0] bcast_S8388608_S8388608x1_0 : (⟨S8388608, .i32⟩ : BufTy).Contents (Elt F) → (⟨S8388608x1, .i32⟩ : BufTy).Contents (Elt F)),
    binary main_v6 main_v7 main_v8 ((fun a b => concatenate S8388608x2 1 [⟨S8388608x1, a⟩, ⟨S8388608x1, b⟩] concatenates_S8388608x1_S8388608x1_S8388608x2_d1) : (⟨S8388608x1, .i32⟩ : BufTy).Contents (Elt F) → (⟨S8388608x1, .i32⟩ : BufTy).Contents (Elt F) → (⟨S8388608x2, .i32⟩ : BufTy).Contents (Elt F)),
    reshape main_v8 main_v9 rfl shapeCasts_S8388608x2_S16777216,
    nullary main_c_2 (constantI S_ 32 0#32),
    unary main_c_2 main_v10 (broadcastInDim S16777216 ![] bcast_S_S16777216 : (⟨S_, .i32⟩ : BufTy).Contents (Elt F) → (⟨S16777216, .i32⟩ : BufTy).Contents (Elt F)),
    binary main_v9 main_v10 main_v11 (cmpi .slt : (⟨S16777216, .i32⟩ : BufTy).Contents (Elt F) → (⟨S16777216, .i32⟩ : BufTy).Contents (Elt F) → (⟨S16777216, .i1⟩ : BufTy).Contents (Elt F)),
    nullary main_c_3 (constantI S_ 32 16#32),
    unary main_c_3 main_v12 (broadcastInDim S16777216 ![] bcast_S_S16777216 : (⟨S_, .i32⟩ : BufTy).Contents (Elt F) → (⟨S16777216, .i32⟩ : BufTy).Contents (Elt F)),
    binary main_v9 main_v12 main_v13 (addi : (⟨S16777216, .i32⟩ : BufTy).Contents (Elt F) → (⟨S16777216, .i32⟩ : BufTy).Contents (Elt F) → (⟨S16777216, .i32⟩ : BufTy).Contents (Elt F)),
    ternary main_v11 main_v13 main_v9 main_v14 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    unary main_v14 main_v15 (broadcastInDim S16777216x1 ![0] bcast_S16777216_S16777216x1_0 : (⟨S16777216, .i32⟩ : BufTy).Contents (Elt F) → (⟨S16777216x1, .i32⟩ : BufTy).Contents (Elt F)),
    binary main_cst main_v15 main_v16 ((fun x i => Host.gather gather_S16_S16777216x1_S16777216_n_0_n_n_0_1_1 x i) : (⟨S16, .f32⟩ : BufTy).Contents (Elt F) → (⟨S16777216x1, .i32⟩ : BufTy).Contents (Elt F) → (⟨S16777216, .f32⟩ : BufTy).Contents (Elt F)),
    reshape main_v16 main_v17 rfl shapeCasts_S16777216_S262144x64,
    unary main_arg2 main_v18 (broadcastInDim S262144x1 ![0] bcast_S262144_S262144x1_0 : (⟨S262144, .f32⟩ : BufTy).Contents (Elt F) → (⟨S262144x1, .f32⟩ : BufTy).Contents (Elt F)),
    unary main_v18 main_v19 (broadcastInDim S262144x64 ![0, 1] bcast_S262144x1_S262144x64_0_1 : (⟨S262144x1, .f32⟩ : BufTy).Contents (Elt F) → (⟨S262144x64, .f32⟩ : BufTy).Contents (Elt F)),
    binary main_v17 main_v19 main_v20 (mulf : (⟨S262144x64, .f32⟩ : BufTy).Contents (Elt F) → (⟨S262144x64, .f32⟩ : BufTy).Contents (Elt F) → (⟨S262144x64, .f32⟩ : BufTy).Contents (Elt F)),
    reshape main_v20 main_v21 rfl shapeCasts_S262144x64_S4096x4096,
    binary main_arg0 main_v21 main_v22 ((fun l r => Host.dotGeneral dot_S4x2048x4096_S4096x4096_S4x2048x4096_2_1_01_0_n_n none l r) : (⟨S4x2048x4096, .f32⟩ : BufTy).Contents (Elt F) → (⟨S4096x4096, .f32⟩ : BufTy).Contents (Elt F) → (⟨S4x2048x4096, .f32⟩ : BufTy).Contents (Elt F)),
    unary main_arg3 main_v23 (broadcastInDim S1x1x4096 ![2] bcast_S4096_S1x1x4096_2 : (⟨S4096, .f32⟩ : BufTy).Contents (Elt F) → (⟨S1x1x4096, .f32⟩ : BufTy).Contents (Elt F)),
    unary main_v23 main_v24 (broadcastInDim S4x2048x4096 ![0, 1, 2] bcast_S1x1x4096_S4x2048x4096_0_1_2 : (⟨S1x1x4096, .f32⟩ : BufTy).Contents (Elt F) → (⟨S4x2048x4096, .f32⟩ : BufTy).Contents (Elt F)),
    binary main_v22 main_v24 main_v25 (addf : (⟨S4x2048x4096, .f32⟩ : BufTy).Contents (Elt F) → (⟨S4x2048x4096, .f32⟩ : BufTy).Contents (Elt F) → (⟨S4x2048x4096, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., reshape_bufs_sub .., nullary_bufs_sub .., unary_bufs_sub .., binary_bufs_sub .., nullary_bufs_sub .., unary_bufs_sub .., binary_bufs_sub .., ternary_bufs_sub .., unary_bufs_sub .., binary_bufs_sub .., reshape_bufs_sub .., unary_bufs_sub .., unary_bufs_sub .., binary_bufs_sub .., reshape_bufs_sub .., binary_bufs_sub .., unary_bufs_sub .., unary_bufs_sub .., binary_bufs_sub ..⟩

/-! ## The result as a term of the arguments -/

/-- The code in each packed word's bits 4..7: the word shifted right (arithmetically) by 4, then its low four bits. -/
def hiw (p : IVec S8388608 32) : IVec S8388608 32 :=
  andi (Host.shrsi p (broadcastInDim S8388608 ![] bcast_S_S8388608 (constantI S_ 32 4#32)))
    (broadcastInDim S8388608 ![] bcast_S_S8388608 (constantI S_ 32 15#32))

/-- The code in each packed word's bits 0..3. -/
def low (p : IVec S8388608 32) : IVec S8388608 32 :=
  andi p (broadcastInDim S8388608 ![] bcast_S_S8388608 (constantI S_ 32 15#32))

/-- The codes in storage order: the two codes of each word side by side (high bits first), then flattened. -/
def codes (p : IVec S8388608 32) : IVec S16777216 32 :=
  shapeCast S16777216
    (concatenate S8388608x2 1
      [⟨S8388608x1, broadcastInDim S8388608x1 ![0] bcast_S8388608_S8388608x1_0 (hiw p)⟩,
        ⟨S8388608x1, broadcastInDim S8388608x1 ![0] bcast_S8388608_S8388608x1_0 (low p)⟩]
      concatenates_S8388608x1_S8388608x1_S8388608x2_d1)
    shapeCasts_S8388608x2_S16777216

/-- An index array normalised as array indexing does: a negative index counts from the end of the 16 entries. -/
def normed (c : IVec S16777216 32) : IVec S16777216 32 :=
  select (cmpi .slt c (broadcastInDim S16777216 ![] bcast_S_S16777216 (constantI S_ 32 0#32)))
    (addi c (broadcastInDim S16777216 ![] bcast_S_S16777216 (constantI S_ 32 16#32))) c

/-- The table of 16 levels read at each index. -/
def looked (c : IVec S16777216 32) : FVec F S16777216 .f32 :=
  Host.gather gather_S16_S16777216x1_S16777216_n_0_n_n_0_1_1
    (fun i => FloatOps.ofBits .f32 (lit0 (S16.rowMajor i)))
    (broadcastInDim S16777216x1 ![0] bcast_S16777216_S16777216x1_0 c)

/-- The weight matrix: the levels in runs of 64, each run times its scale, as 4096 rows of 4096. -/
def weight (p : IVec S8388608 32) (a : FVec F S262144 .f32) : FVec F S4096x4096 .f32 :=
  shapeCast S4096x4096
    (mulf (shapeCast S262144x64 (looked (normed (codes p))) shapeCasts_S16777216_S262144x64)
      (broadcastInDim S262144x64 ![0, 1] bcast_S262144x1_S262144x64_0_1
        (broadcastInDim S262144x1 ![0] bcast_S262144_S262144x1_0 a)))
    shapeCasts_S262144x64_S4096x4096

/-- The result: the input contracted with the weight matrix over the input-feature axis, plus the bias. -/
def res (x : FVec F S4x2048x4096 .f32) (p : IVec S8388608 32) (a : FVec F S262144 .f32) (b : FVec F S4096 .f32) :
    FVec F S4x2048x4096 .f32 :=
  addf (Host.dotGeneral dot_S4x2048x4096_S4096x4096_S4x2048x4096_2_1_01_0_n_n none x (weight p a))
    (broadcastInDim S4x2048x4096 ![0, 1, 2] bcast_S1x1x4096_S4x2048x4096_0_1_2
      (broadcastInDim S1x1x4096 ![2] bcast_S4096_S1x1x4096_2 b))

set_option maxHeartbeats 4000000 in
/-- The result buffer after the 32 operations, from any contents: that term of the four argument buffers. -/
theorem after_v25 (V : Valuation τ sig (Elt F)) :
    after (ops (F := F)) V (Proc.devRef .tc main_v25)
      = res (V (Proc.devRef .tc main_arg0)) (V (Proc.devRef .tc main_arg1)) (V (Proc.devRef .tc main_arg2))
          (V (Proc.devRef .tc main_arg3)) := by
  after_results
  rfl

/-- On every device, for any float values, from any memory with zero counters: every weakly fair execution of the
    reference terminates with its result at that term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v25)
          = res (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v25).trans (after_v25 _),
      (h c main_arg0).trans (by after_results_simp),
      (h c main_arg1).trans (by after_results_simp),
      (h c main_arg2).trans (by after_results_simp),
      (h c main_arg3).trans (by after_results_simp)⟩)
    (run_seq scopedRefs_eq scopedSems_eq defs main (fun _ => ops) main_eq (fun _ => ops_sub) m ρ)

end Cert.ReferenceIdeal.Hand

end
-- ==== Proof.Ref.Val.lean ====
/-
  The reference program at the ideal instance: its result is the specification `Cert.Spec.G` of its four argument
  arrays — the 4-bit codes unpacked (high bits first) and looked up in the table of 16 levels, scaled per block of 64,
  reshaped to the 4096 x 4096 weight matrix, contracted with the input over the input-feature axis, the bias added.
-/
import proofs.«426126_j63299228008743_2_alg».proof.Proof.Ref.Run
import proofs.«426126_j63299228008743_2_alg».proof.Proof.Spec
import Idealize.ShloMosaic.Lib.Pipeline.Value
import Idealize.ShloMosaic.Lib.ValueIdx
import Idealize.ShloMosaic.PureOps.Ideal.Laws

noncomputable section

namespace Cert.ReferenceIdeal.Hand

open Idealize.ShloMosaic Idealize.ShloMosaic.TcCoe Idealize.ShloMosaic.ValueIdx Idealize.SL.Sem
open Cert.ReferenceIdeal Cert.ReferenceIdeal.Gen
open scoped BigOperators

/-! ## The unpacking, read at an index -/

theorem shrsi_four (x : BitVec 32) : IntOp.shrsi .host x 4#32 = x.sshiftRight' 4#32 := by
  unfold IntOp.shrsi
  rw [if_pos (by decide)]

/-- The high code of word `w`. -/
theorem hiw_apply (p : IVec S8388608 32) (w : Fin 8388608) : hiw p (ix1 w) = Cert.Spec.hiCode (p (ix1 w)) := by
  show IntOp.andi (IntOp.shrsi .host (p (ix1 w)) 4#32) 15#32 = _
  rw [shrsi_four]
  rfl

/-- The low code of word `w`. -/
theorem low_apply (p : IVec S8388608 32) (w : Fin 8388608) : low p (ix1 w) = Cert.Spec.loCode (p (ix1 w)) := rfl

/-- A vector as a one-column matrix, read at a row. -/
theorem col_apply {α : Type} (v : S8388608.Idx → α) (w : Fin 8388608) (z : Fin 1) :
    broadcastInDim S8388608x1 ![0] bcast_S8388608_S8388608x1_0 v (ix2 w z) = v (ix1 w) := by
  refine broadcastInDim_apply _ _ v (ix2 w z) (ix1 w) fun a => ?_
  obtain rfl : a = 0 := Subsingleton.elim _ _
  rw [if_neg (by decide)]
  rfl

/-- Code number `n` is in word `n / 2`: its high code when `n` is even, its low code when `n` is odd. -/
theorem codes_apply (p : IVec S8388608 32) (n : Fin 16777216) :
    codes p (ix1 n)
      = if n.val % 2 = 0 then Cert.Spec.hiCode (p (ix1 ⟨n.val / 2, by omega⟩))
          else Cert.Spec.loCode (p (ix1 ⟨n.val / 2, by omega⟩)) := by
  unfold codes
  rw [shapeCast_apply _ _ (ix1 n) (ix2 (⟨n.val / 2, by omega⟩ : Fin 8388608) (⟨n.val % 2, by omega⟩ : Fin 2))
    (by rw [Shape.rowMajor_val_two, Shape.rowMajor_val_one]
        show n.val / 2 * 2 + n.val % 2 = n.val
        omega)]
  by_cases h : n.val % 2 = 0
  · rw [if_pos h]
    refine (concatenate_pair_apply_left (t := S8388608x2) (s₁ := S8388608x1) (s₂ := S8388608x1) (1 : Fin 2) _ _ _
      (ix2 (⟨n.val / 2, by omega⟩ : Fin 8388608) (⟨n.val % 2, by omega⟩ : Fin 2)) rfl
      (ix2 (⟨n.val / 2, by omega⟩ : Fin 8388608) (0 : Fin 1)) ?_).trans ?_
    · intro b
      match b with
      | ⟨0, _⟩ => rfl
      | ⟨1, _⟩ => exact h.symm
    · rw [col_apply, hiw_apply]
  · rw [if_neg h]
    refine (concatenate_pair_apply_right (t := S8388608x2) (s₁ := S8388608x1) (s₂ := S8388608x1) (1 : Fin 2) _ _ _
      (ix2 (⟨n.val / 2, by omega⟩ : Fin 8388608) (⟨n.val % 2, by omega⟩ : Fin 2)) rfl rfl
      (ix2 (⟨n.val / 2, by omega⟩ : Fin 8388608) (0 : Fin 1)) ?_ ?_).trans ?_
    · intro b hb
      match b with
      | ⟨0, _⟩ => rfl
      | ⟨1, _⟩ => exact absurd rfl hb
    · show 0 + 1 = n.val % 2
      omega
    · rw [col_apply, low_apply]

/-! ## A code word as an index into the 16 levels -/

/-- A code word (below 16) read as a signed integer is its value. -/
theorem toInt_code (v : BitVec 32) (h : v.toNat < 16) : v.toInt = (v.toNat : Int) :=
  BitVec.toInt_eq_toNat_of_lt (by omega)

/-- A code word is not negative, so the index normalisation keeps it. -/
theorem normed_apply (c : IVec S16777216 32) (n : Fin 16777216) (h : (c (ix1 n)).toNat < 16) :
    normed c (ix1 n) = c (ix1 n) := by
  show Scalar.select (IntOp.cmpi .slt (c (ix1 n)) 0#32) (IntOp.addi (c (ix1 n)) 16#32) (c (ix1 n)) = _
  have h0 : IntOp.cmpi .slt (c (ix1 n)) 0#32 = 0#1 := by
    show BitVec.ofBool ((c (ix1 n)).slt 0#32) = 0#1
    rw [BitVec.slt_eq_decide, toInt_code _ h, BitVec.toInt_zero, decide_eq_false (by omega)]
    rfl
  rw [h0, select_zero]

/-- The index array as a one-column matrix, read at a row. -/
theorem col16_apply (c : IVec S16777216 32) (n : Fin 16777216) (z : Fin 1) :
    broadcastInDim S16777216x1 ![0] bcast_S16777216_S16777216x1_0 c (ix2 n z) = c (ix1 n) := by
  refine broadcastInDim_apply _ _ c (ix2 n z) (ix1 n) fun a => ?_
  obtain rfl : a = 0 := Subsingleton.elim _ _
  rw [if_neg (by decide)]
  rfl

/-- The table lookup read at an index: the table at the index word, read signed and clamped to the last entry. -/
theorem gather_apply {α : Type} (x : S16.Idx → α) (idx : IVec S16777216x1 32) (n : Fin 16777216) :
    Host.gather gather_S16_S16777216x1_S16777216_n_0_n_n_0_1_1 x idx (ix1 n)
      = x (ix1 ⟨min (idx (ix2 n (0 : Fin 1))).toInt.toNat 15, by omega⟩) := by
  unfold Host.gather
  congr 1
  funext a
  obtain rfl : a = 0 := Subsingleton.elim _ _
  refine Fin.ext ?_
  show gather_S16_S16777216x1_S16777216_n_0_n_n_0_1_1.start (ix1 n) idx 0
      + gather_S16_S16777216x1_S16777216_n_0_n_n_0_1_1.batchCoord (ix1 n) 0
      + gather_S16_S16777216x1_S16777216_n_0_n_n_0_1_1.offCoord (ix1 n) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S16_S16777216x1_S16777216_n_0_n_n_0_1_1.startIndexMap from
    List.mem_singleton.mpr rfl)]
  have hsi : gather_S16_S16777216x1_S16777216_n_0_n_n_0_1_1.siIdx (ix1 n)
      ⟨List.idxOf (0 : Fin 1) gather_S16_S16777216x1_S16777216_n_0_n_n_0_1_1.startIndexMap,
        List.idxOf_lt_length_iff.2 (List.mem_singleton.mpr rfl)⟩ = ix2 n (0 : Fin 1) := by
    funext b; refine Fin.ext ?_
    match b with
    | ⟨0, _⟩ => rfl
    | ⟨1, _⟩ => rfl
  rw [hsi]
  rfl

/-- The printed table is the 16 levels. -/
theorem lit0_eq : ∀ i : Fin 16, lit0 i = Cert.Spec.levelWord i := by decide

/-- The table's entry at a code word's value is the level the word names. -/
theorem table_apply (k : Fin 16) (v : BitVec 32) (hk : k.val = v.toNat % 16) :
    FloatOps.ofBits (F := Ideal) .f32 (lit0 (S16.rowMajor (ix1 k))) = Cert.Spec.level v := by
  unfold Cert.Spec.level
  refine (congrArg (FloatOps.ofBits (F := Ideal) .f32) (lit0_eq (S16.rowMajor (ix1 k)))).trans ?_
  refine congrArg (fun i => FloatOps.ofBits (F := Ideal) .f32 (Cert.Spec.levelWord i)) (Fin.ext ?_)
  rw [Shape.rowMajor_val_one]
  exact hk

/-- The level looked up at a code word. -/
theorem looked_apply (c : IVec S16777216 32) (n : Fin 16777216) (h : (c (ix1 n)).toNat < 16) :
    looked (F := Ideal) c (ix1 n) = Cert.Spec.level (c (ix1 n)) := by
  unfold looked
  rw [gather_apply]
  refine table_apply _ _ ?_
  show min (broadcastInDim S16777216x1 ![0] bcast_S16777216_S16777216x1_0 c (ix2 n (0 : Fin 1))).toInt.toNat 15 = _
  rw [col16_apply, toInt_code _ h, Int.toNat_natCast]
  omega

/-! ## The weight matrix, read at an entry -/

/-- The scales as a one-column matrix, stretched to 64 columns, read at an entry: the row's scale. -/
theorem scales_apply (a : FVec Ideal S262144 .f32) (r : Fin 262144) (c : Fin 64) :
    broadcastInDim S262144x64 ![0, 1] bcast_S262144x1_S262144x64_0_1
      (broadcastInDim S262144x1 ![0] bcast_S262144_S262144x1_0 a) (ix2 r c) = a (ix1 r) := by
  refine (broadcastInDim_apply _ _ _ (ix2 r c) (ix2 r (0 : Fin 1)) fun b => ?_).trans ?_
  · match b with
    | ⟨0, _⟩ => rw [if_neg (by decide +revert)]; rfl
    | ⟨1, _⟩ => rw [if_pos (by decide +revert)]; rfl
  · refine broadcastInDim_apply _ _ a (ix2 r (0 : Fin 1)) (ix1 r) fun b => ?_
    obtain rfl : b = 0 := Subsingleton.elim _ _
    rw [if_neg (by decide)]
    rfl

/-- Entry (o, i) of the weight matrix is the specification's: through its flat position `o * 4096 + i`. -/
theorem weight_apply (p : IVec S8388608 32) (a : FVec Ideal S262144 .f32) (o i : Fin 4096) :
    weight (F := Ideal) p a (ix2 o i) = Cert.Spec.wt p a o i := by
  have hn : o.val * 4096 + i.val < 16777216 := by omega
  rw [Cert.Spec.wt_flat]
  unfold weight
  rw [shapeCast_apply _ _ (ix2 o i)
    (ix2 (⟨(o.val * 4096 + i.val) / 64, by omega⟩ : Fin 262144) (⟨(o.val * 4096 + i.val) % 64, by omega⟩ : Fin 64))
    (by rw [Shape.rowMajor_val_two, Shape.rowMajor_val_two]
        show (o.val * 4096 + i.val) / 64 * 64 + (o.val * 4096 + i.val) % 64 = o.val * 4096 + i.val
        omega)]
  rw [mulf_apply, scales_apply]
  rw [shapeCast_apply _ _
    (ix2 (⟨(o.val * 4096 + i.val) / 64, by omega⟩ : Fin 262144) (⟨(o.val * 4096 + i.val) % 64, by omega⟩ : Fin 64))
    (ix1 (⟨o.val * 4096 + i.val, hn⟩ : Fin 16777216))
    (by rw [Shape.rowMajor_val_one, Shape.rowMajor_val_two]
        show o.val * 4096 + i.val = (o.val * 4096 + i.val) / 64 * 64 + (o.val * 4096 + i.val) % 64
        omega)]
  have hc : (codes p (ix1 (⟨o.val * 4096 + i.val, hn⟩ : Fin 16777216))).toNat < 16 := by
    rw [codes_apply]
    split
    · exact Cert.Spec.hiCode_lt _
    · exact Cert.Spec.loCode_lt _
  have hc' : (normed (codes p) (ix1 (⟨o.val * 4096 + i.val, hn⟩ : Fin 16777216))).toNat < 16 := by
    rw [normed_apply _ _ hc]; exact hc
  rw [looked_apply _ _ hc', normed_apply _ _ hc, codes_apply]

/-! ## The contraction, read at an entry -/

abbrev D := dot_S4x2048x4096_S4096x4096_S4x2048x4096_2_1_01_0_n_n

theorem lhs_0 (j : S4x2048x4096.Idx) (k : D.contr.Idx) : (D.lhsIdx j k 0 : ℕ) = j 0 := by
  simp [DotDims.lhsIdx, D, dot_S4x2048x4096_S4096x4096_S4x2048x4096_2_1_01_0_n_n]; rfl
theorem lhs_1 (j : S4x2048x4096.Idx) (k : D.contr.Idx) : (D.lhsIdx j k 1 : ℕ) = j 1 := by
  simp [DotDims.lhsIdx, D, dot_S4x2048x4096_S4096x4096_S4x2048x4096_2_1_01_0_n_n]; rfl
theorem lhs_2 (j : S4x2048x4096.Idx) (k : D.contr.Idx) : (D.lhsIdx j k 2 : ℕ) = k ⟨0, by decide⟩ := by
  simp [DotDims.lhsIdx, D, dot_S4x2048x4096_S4096x4096_S4x2048x4096_2_1_01_0_n_n]; rfl
theorem rhs_0 (j : S4x2048x4096.Idx) (k : D.contr.Idx) : (D.rhsIdx j k 0 : ℕ) = j 2 := by
  simp [DotDims.rhsIdx, D, dot_S4x2048x4096_S4096x4096_S4x2048x4096_2_1_01_0_n_n]; rfl
theorem rhs_1 (j : S4x2048x4096.Idx) (k : D.contr.Idx) : (D.rhsIdx j k 1 : ℕ) = k ⟨0, by decide⟩ := by
  simp [DotDims.rhsIdx, D, dot_S4x2048x4096_S4096x4096_S4x2048x4096_2_1_01_0_n_n]; rfl

/-- The contraction index set is the 4096 input features. -/
def contrE : D.contr.Idx ≃ Fin 4096 := contrEquiv1 D 4096 rfl rfl

theorem contrE_symm_val (i : Fin 4096) : ((contrE.symm i) ⟨0, by decide⟩ : ℕ) = i.val :=
  contrEquiv1_symm_val D 4096 rfl rfl i

/-- The left operand's index at output entry (b, s, o) and input feature i. -/
theorem lhs_eq (b : Fin 4) (s : Fin 2048) (o i : Fin 4096) : D.lhsIdx (ix3 b s o) (contrE.symm i) = ix3 b s i := by
  funext a
  refine Fin.ext ?_
  match a with
  | ⟨0, _⟩ => exact lhs_0 _ _
  | ⟨1, _⟩ => exact lhs_1 _ _
  | ⟨2, _⟩ => exact (lhs_2 _ _).trans (contrE_symm_val i)

/-- The right operand's index there. -/
theorem rhs_eq (b : Fin 4) (s : Fin 2048) (o i : Fin 4096) : D.rhsIdx (ix3 b s o) (contrE.symm i) = ix2 o i := by
  funext a
  refine Fin.ext ?_
  match a with
  | ⟨0, _⟩ => exact rhs_0 _ _
  | ⟨1, _⟩ => exact (rhs_1 _ _).trans (contrE_symm_val i)

/-- The bias stretched over batch and sequence, read at an entry. -/
theorem bias_apply (bv : FVec Ideal S4096 .f32) (b : Fin 4) (s : Fin 2048) (o : Fin 4096) :
    broadcastInDim S4x2048x4096 ![0, 1, 2] bcast_S1x1x4096_S4x2048x4096_0_1_2
      (broadcastInDim S1x1x4096 ![2] bcast_S4096_S1x1x4096_2 bv) (ix3 b s o) = bv (ix1 o) := by
  refine (broadcastInDim_apply _ _ _ (ix3 b s o) (ix3 (0 : Fin 1) (0 : Fin 1) o) fun c => ?_).trans ?_
  · match c with
    | ⟨0, _⟩ => rw [if_pos (by decide +revert)]; rfl
    | ⟨1, _⟩ => rw [if_pos (by decide +revert)]; rfl
    | ⟨2, _⟩ => rw [if_neg (by decide +revert)]; rfl
  · refine broadcastInDim_apply _ _ bv (ix3 (0 : Fin 1) (0 : Fin 1) o) (ix1 o) fun c => ?_
    obtain rfl : c = 0 := Subsingleton.elim _ _
    rw [if_neg (by decide)]
    rfl

/-! ## The result is the specification -/

theorem res_eq_G (x : FVec Ideal S4x2048x4096 .f32) (p : IVec S8388608 32) (a : FVec Ideal S262144 .f32)
    (bv : FVec Ideal S4096 .f32) : res (F := Ideal) x p a bv = Cert.Spec.G x p a bv := by
  funext j
  obtain ⟨b, s, o, rfl⟩ : ∃ (b : Fin 4) (s : Fin 2048) (o : Fin 4096), j = ix3 b s o := ⟨j 0, j 1, j 2, eq_ix3 j⟩
  unfold res
  rw [addf_apply, bias_apply]
  show _ = Cert.Spec.outAt x p a bv b s o
  unfold Cert.Spec.outAt
  refine congrArg (· + bv (ix1 o)) ?_
  simp only [Host.dotGeneral]
  rw [Ideal.dotGeneral_apply, ← Equiv.sum_comp contrE.symm]
  refine Finset.sum_congr rfl fun i _ => ?_
  rw [lhs_eq, rhs_eq, weight_apply]

/-- THE REFERENCE'S RUN, READ AS THE SPECIFICATION. From any memory with zero counters every weakly fair execution of
    the reference terminates, nothing faulting, with its result array at `Cert.Spec.G` of the argument arrays and the
    argument arrays unchanged. -/
theorem run_G (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v25)
          = Cert.Spec.G (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run _ _ _).mono (fun _ h c => ⟨(h c).1.trans (res_eq_G _ _ _ _), (h c).2⟩) (run (F := Ideal) m ρ)

end Cert.ReferenceIdeal.Hand

end
-- ==== Proof.lean ====
/-
  The certificate of a 4-bit-quantised linear layer: a two-kernel TPU program against its plain reference.
  Both compute  out[b, s, o] = (sum over i of x[b, s, i] * W[o, i]) + bias[o]  where the 4096 x 4096 weight W is stored
  as 4-bit codes, two per packed word, each naming one of 16 fixed levels, scaled per block of 64 consecutive weights
  (`Cert.Spec.G`). The kernel program dequantises the even and the odd columns of W in one tiled kernel, interleaves them
  on the host, and multiplies in a second kernel tiled 2048 x 1024 x 1024 whose scratch accumulator adds the four
  contraction tiles onto zero before the bias is added; the reference unpacks, looks up, scales, reshapes and contracts
  whole arrays. Over the extended reals the two agree exactly: the only law used between the two arrangements is that
  a finite sum of extended reals may be taken run by run (commutativity and associativity of addition), so no
  finiteness of the inputs is needed and the precondition is never opened.
  The three frames: each program runs to the end from any memory, nothing faulting, its arguments unchanged — for the
  kernel program at both float instances from one run theorem generic in the instance, for the reference from its run.
  The idealization rewrote no operation of the kernel program, so `preserves` has nothing to state.
-/
import proofs.«426126_j63299228008743_2_alg».proof.Defs
import proofs.«426126_j63299228008743_2_alg».proof.Proof.Gen.Kernel
import proofs.«426126_j63299228008743_2_alg».proof.Proof.Gen.KernelIdeal
import proofs.«426126_j63299228008743_2_alg».proof.Proof.Gen.ReferenceIdeal
import proofs.«426126_j63299228008743_2_alg».proof.Proof.Gen.Pre_finite_inputs
import proofs.«426126_j63299228008743_2_alg».proof.Proof.K.Run
import proofs.«426126_j63299228008743_2_alg».proof.Proof.KI.Run
import proofs.«426126_j63299228008743_2_alg».proof.Proof.Val.Kernel
import proofs.«426126_j63299228008743_2_alg».proof.Proof.Ref.Val
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Frm.frame (F := Bits) m ρ

theorem frame_ki : Cert.frame_KernelIdeal := fun m ρ _ => Cert.KernelIdeal.Frm.frame (F := Ideal) m ρ

theorem frame_ri : Cert.frame_ReferenceIdeal := fun m ρ _ =>
  (θ_run Cert.ReferenceIdeal.defs _ _).mono (fun _ h c => (h c).2) (Cert.ReferenceIdeal.Hand.run_G m ρ)

/-- The idealization's ledger is empty. -/
theorem preserves : Cert.preserves_Kernel_KernelIdeal := trivial

/-- Both idealized programs end with the specification of their (agreeing) arguments in their result arrays. -/
theorem algebraic : Cert.algebraic_KernelIdeal_ReferenceIdeal := by
  intro m ρ m' ρ' _ hagree
  refine ⟨fun c => Cert.Spec.G (Cert.KernelIdeal.Val.xArg m c) (Cert.KernelIdeal.Val.pwArg m c)
      (Cert.KernelIdeal.Val.amArg m c) (Cert.KernelIdeal.Val.biasArg m c), ?_, ?_⟩
  · exact (θ_run Cert.KernelIdeal.defs _ _).mono (fun r h c =>
      ⟨(h c _ (Cert.KernelIdeal.Frm.mem_uc Cert.KernelIdeal.main_v11 (by decide))).trans (Cert.KernelIdeal.Val.result_eq m ρ c),
       (h c _ (Cert.KernelIdeal.Frm.mem_uc Cert.KernelIdeal.main_arg0 (by decide))).trans (Cert.KernelIdeal.Frm.W5_main_arg0 m ρ c),
       (h c _ (Cert.KernelIdeal.Frm.mem_uc Cert.KernelIdeal.main_arg1 (by decide))).trans (Cert.KernelIdeal.Frm.W5_main_arg1 m ρ c),
       (h c _ (Cert.KernelIdeal.Frm.mem_uc Cert.KernelIdeal.main_arg2 (by decide))).trans (Cert.KernelIdeal.Frm.W5_main_arg2 m ρ c),
       (h c _ (Cert.KernelIdeal.Frm.mem_uc Cert.KernelIdeal.main_arg3 (by decide))).trans (Cert.KernelIdeal.Frm.W5_main_arg3 m ρ c)⟩)
      (Cert.KernelIdeal.Frm.run_all (F := Ideal) m ρ)
  · refine (θ_run Cert.ReferenceIdeal.defs _ _).mono (fun r h c => ⟨(h c).1.trans ?_, (h c).2⟩)
      (Cert.ReferenceIdeal.Hand.run_G m' ρ')
    rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
